-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S16384x1024 : Shape := ⟨2, ![16384, 1024]⟩
abbrev S_ : Shape := ⟨0, ![]⟩
abbrev S1024x3072 : Shape := ⟨2, ![1024, 3072]⟩
abbrev S1x1024 : Shape := ⟨2, ![1, 1024]⟩
abbrev S1x3072 : Shape := ⟨2, ![1, 3072]⟩
abbrev S512x1024 : Shape := ⟨2, ![512, 1024]⟩
abbrev S512x3072 : Shape := ⟨2, ![512, 3072]⟩
abbrev S1x1024x1024 : Shape := ⟨3, ![1, 1024, 1024]⟩
abbrev S1024x1 : Shape := ⟨2, ![1024, 1]⟩

abbrev nBuf : Space → Nat
  | .hbm => 32
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x3072, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x3072, .f32⟩
  | .hbm, ⟨25, _⟩ => ⟨S16384x1024, .bf16⟩
  | .hbm, ⟨26, _⟩ => ⟨S16384x1024, .bf16⟩
  | .hbm, ⟨27, _⟩ => ⟨S16384x1024, .bf16⟩
  | .hbm, ⟨28, _⟩ => ⟨S4x4096x1024, .bf16⟩
  | .hbm, ⟨29, _⟩ => ⟨S4x4096x1024, .bf16⟩
  | .hbm, ⟨30, _⟩ => ⟨S4x4096x1024, .bf16⟩
  | .hbm, ⟨31, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_26 : BitVec 32 := 0#32
  let v42 : BitVec 1 := Scalar.cmpi .ne v41 c0_i32_26
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x1024_S16384x1024 : S4x4096x1024.ShapeCasts S16384x1024
  bcast_S_S1024x1024 : S_.BroadcastsInDim S1024x1024 (![] : Fin 0 → Fin S1024x1024.rank)
  bcast_S_S1024 : S_.BroadcastsInDim S1024 (![] : Fin 0 → Fin S1024.rank)
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  shapeCasts_S1024_S1x1024 : S1024.ShapeCasts S1x1024
  concatenates_S1x1024_S1x1024_S1x1024_S1x3072_d1 : Shape.Concatenates [S1x1024, S1x1024, S1x1024] S1x3072 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S16384x1024_S4x4096x1024 : S16384x1024.ShapeCasts S4x4096x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S1024x1024_S1024x1024_1_1_0_0_n_n_wf : DotDims.WF S1024x1024 S1024x1024 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x4096x1024.size a
  hwx1_1 : ∀ i : grid1.Coords, EltTy.bits .bf16 = 32 ∨ (Rect.block (s := S4x4096x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .bf16 = 32 ∨ (Rect.block (s := S4x4096x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x4096x1024, .f32⟩
  | .hbm, ⟨8, _⟩ => ⟨S1x1x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.Region0.lean ====
/-
  The projection kernel as a pipeline region: what each grid point reads and writes.

  A point `t` of the 32-point grid loads rows `512 t … 512 t + 511` of the flattened input (a block of window 0),
  the whole stacked weight matrix (window 1) and the whole stacked bias row (window 2), and stores the three
  column thirds of `block · weights + bias` into the blocks of the three result arrays (windows 3, 4, 5).
  Stated at the buffer contents `V` the region is entered with, for any float instance.
-/
import proofs.«414292_j1580547973071_3_alg».proof.Proof.Gen.Kernel.Launch
import proofs.«414292_j1580547973071_3_alg».proof.Proof.Gen.Kernel.Skeleton
import proofs.«414292_j1580547973071_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in each result window's buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0

/-- The query third: one whole-buffer store of the first 1024 columns of `block · weights + bias`. -/
def out0_3 (x0 : Vec F S512x1024 .f32) (x1 : Vec F S1024x3072 .bf16) (x2 : Vec F S1x3072 .f32) : Vec F S512x1024 .bf16 :=
  View.canon [⟨r0_0, k0_pay2 (View.ld x0 r0_0) (View.ld x1 r0_1) (View.ld x2 r0_2)⟩]
/-- The key third: columns 1024 … 2047. -/
def out0_4 (x0 : Vec F S512x1024 .f32) (x1 : Vec F S1024x3072 .bf16) (x2 : Vec F S1x3072 .f32) : Vec F S512x1024 .bf16 :=
  View.canon [⟨r0_0, k0_pay3 (View.ld x0 r0_0) (View.ld x1 r0_1) (View.ld x2 r0_2)⟩]
/-- The value third: columns 2048 … 3071. -/
def out0_5 (x0 : Vec F S512x1024 .f32) (x1 : Vec F S1024x3072 .bf16) (x2 : Vec F S1x3072 .f32) : Vec F S512x1024 .bf16 :=
  View.canon [⟨r0_0, k0_pay4 (View.ld x0 r0_0) (View.ld x1 r0_1) (View.ld x2 r0_2)⟩]

/-- One whole-buffer store covers the buffer. -/
theorem cover0_o (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- On whole staging memrefs, the inputs' at contents `x0 x1 x2` and the results' at anything, the body runs to the
    continuation holding the inputs' as they were and each result's at its third. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The proof data of the projection pipeline on core `c`: the arrays as the region finds them; after the body at point
    `t` each input's buffer at its block and each result's at its third of the point's input blocks; the scoped rest and
    the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.R1Base.lean ====
import proofs.«414292_j1580547973071_3_alg».proof.Proof.Gen.Kernel.Launch
import proofs.«414292_j1580547973071_3_alg».proof.Proof.Gen.Kernel.Skeleton
import proofs.«414292_j1580547973071_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first conditional (the reset of the running statistics), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the normalised output's store), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C output 3 is live: the case stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated (the choice does not matter). -/
abbrev VO1_3 : View sig .tc .vmem S1x1024x1024 .f32 := (Memref.whole cc1_stg3_0 : Memref sig .tc .vmem S1x1024x1024 .f32).view
/-- Each window's current staging memref at point `t`, spelled as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows — the running maximum,
    the running denominator and the accumulator, all three carried between points. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
/-- The same as views: what they hold is stated through these. -/
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The scoped rest of the second call split at its own three scratch operands, each whole at some contents; the
    remainder (the first call's staging buffers) unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_scratch2), ((c : Thread nD τ).loc cc1_scratch2) ↦{fullShare} f))
          ∗ Pipeline.scopedRestBut (Ix := Ix) (Name := Name) (U := U) (Lvl := Lvl) (Val := Val) spec1 c [cc1_scratch0, cc1_scratch1, cc1_scratch2]) :=
  Pipeline.scopedRest_split_of_list spec1 c [cc1_scratch0, cc1_scratch1, cc1_scratch2] (by decide) (by decide)

/-- The scoped buffers that are neither a staging buffer of the second call nor one of its scratch operands, at some
    contents each: carried through the region unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class's invariant with the scratch operands as memrefs owned at some contents: what the body obligation hands
    the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 (F := F) c) ∗ (∃ r, prngReg c r)) := by
  unfold Pipeline.ΦA; rw [scopedRest1_split]; simp only [scM1_0, scM1_1, scM1_2, owns_whole]; try rfl

end Cert.Kernel.Fr

end
-- ==== Proof.K.R1RunA.lean ====
import proofs.«414292_j1580547973071_3_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the three scratch operands, as pieces (last
    first), in case A (the reset taken, the output's store not taken: the first key/value step of a row block), with the
    proof that on whole memrefs — the inputs' at their contents, the idle output's at contents handed back untouched,
    the three scratch operands at anything (the reset overwrites them before they are read) — the body runs to the
    continuation holding the inputs' as they were and each scratch operand with its pieces written. -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.K.R1RunB.lean ====
import proofs.«414292_j1580547973071_3_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The same in case B (neither conditional taken: a middle key/value step): the three scratch operands at the
    contents the point before left (`xs·`); the idle output's buffer handed back untouched. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.K.R1RunC.lean ====
import proofs.«414292_j1580547973071_3_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The same in case C (the reset not taken, the output's store taken: the last key/value step of a row block): the
    three scratch operands at the contents the point before left (`xs·`); the output's buffer at anything, left with its
    pieces written. -/
noncomputable def kernelRun1_C (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Fr

end
-- ==== Proof.K.Region1.lean ====
import proofs.«414292_j1580547973071_3_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output's buffer and in the scratch operands -/

/-- Case A stores nothing into the output (the window is idle at its points and not written back there): no pieces —
    a placeholder that nothing consults. -/
def out1_A_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for scratch operand 0 (the running maximum) cover it. -/
theorem scover1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What case A leaves in scratch operand 0 (the running maximum): its pieces read back over junk. -/
def sout1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch operand 1 (the running denominator) cover it. -/
theorem scover1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What case A leaves in scratch operand 1 (the running denominator): its pieces read back over junk. -/
def sout1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch operand 2 (the accumulator) cover it. -/
theorem scover1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What case A leaves in scratch operand 2 (the accumulator): its pieces read back over junk. -/
def sout1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into the output (the window is idle at its points and not written back there): no pieces —
    a placeholder that nothing consults. -/
def out1_B_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for scratch operand 0 (the running maximum) cover it. -/
theorem scover1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What case B leaves in scratch operand 0 (the running maximum): its pieces read back over junk. -/
def sout1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch operand 1 (the running denominator) cover it. -/
theorem scover1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What case B leaves in scratch operand 1 (the running denominator): its pieces read back over junk. -/
def sout1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch operand 2 (the accumulator) cover it. -/
theorem scover1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What case B leaves in scratch operand 2 (the accumulator): its pieces read back over junk. -/
def sout1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's pieces for the output tile its block, so they cover it. -/
theorem cover1_C_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output's staging buffer: its pieces read back over junk. -/
def out1_C_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for scratch operand 0 (the running maximum) cover it. -/
theorem scover1_C_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What case C leaves in scratch operand 0 (the running maximum): its pieces read back over junk. -/
def sout1_C_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch operand 1 (the running denominator) cover it. -/
theorem scover1_C_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What case C leaves in scratch operand 1 (the running denominator): its pieces read back over junk. -/
def sout1_C_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch operand 2 (the accumulator) cover it. -/
theorem scover1_C_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What case C leaves in scratch operand 2 (the accumulator): its pieces read back over junk. -/
def sout1_C_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

section Region1
-- the TensorCore's buffer contents when the region is entered
variable (V : (c : Dev nD) → (b : Ref sig .tc) → Buf (Elt F) ((c : Thread nD τ).loc b))

/-! ## What the output and the scratch operands hold after each point -/

/-- THE ACCUMULATION. What the output's staging buffer and the three scratch operands hold after the body at position
    `n` (the output, then the running maximum, the running denominator, the accumulator): the case the closed forms
    select at `n`, run at the point's memrefs and input blocks, over what the point before left in the scratch operands. -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The scratch operands at named contents beside the unopened rest and the generator register at some state. -/
def PhiAt1 (c : Dev nD) (s0 : Vec F S1024x1 .f32) (s1 : Vec F S1024x1 .f32) (s2 : Vec F S1024x1024 .f32) : sProp 𝕄 :=
  iprop(iprop(iprop(owns (c : Thread nD τ) scM1_0 fullShare s0 ∗ owns (c : Thread nD τ) scM1_1 fullShare s1 ∗ owns (c : Thread nD τ) scM1_2 fullShare s2) ∗ restBut1 (F := F) c) ∗ (∃ r, prngReg c r))

/-- The region invariant before position `n`: before the first point the class's (every scratch operand at anything);
    afterwards each scratch operand at what the point before left in it, the other scoped buffers at anything and the
    generator register at some state. -/
def PhiS1 (c : Dev nD) : (n : ℕ) → n ≤ cfg1.N → sProp 𝕄
  | 0, _ => Pipeline.ΦA spec1 c
  | n + 1, hn => PhiAt1 c (outsAt1 V c n hn).2.1 (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

/-- After point `n` (before point `n + 1`): the scratch operands at that point's contents. -/
theorem PhiS1_succ (c : Dev nD) (n : ℕ) (hn : n < cfg1.N) :
    PhiS1 V c (n + 1) hn = PhiAt1 c (outsAt1 V c n hn).2.1 (outsAt1 V c n hn).2.2.1 (outsAt1 V c n hn).2.2.2 := rfl

/-- Before a point that is not the first: the scratch operands at what the point before left. -/
theorem PhiS1_pos (c : Dev nD) (n : ℕ) (h : n ≤ cfg1.N) (hz : n ≠ 0) :
    PhiS1 V c n h = PhiAt1 c (outsAt1 V c (n - 1) (by omega)).2.1 (outsAt1 V c (n - 1) (by omega)).2.2.1 (outsAt1 V c (n - 1) (by omega)).2.2.2 := by
  cases n with
  | zero => exact absurd rfl hz
  | succ n => rfl

/-! ## The pipeline's proof data -/

/-- The proof data of the second pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch operands at what the point before left (at anything at the first point) and
    takes them back at this point's contents; the other scoped buffers, the generator register and the core's dues pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        unfold PhiAt1
        iintro ⟨⟨⟨⟨HS0, HS1, HS2⟩, HR⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              · unfold owns; iexists _; isplitr
                swap; · iexact HS2
                ipureintro; exact View.read_writes_of_cover _ _ _ _ _ (scover1_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        unfold PhiAt1
        iintro ⟨⟨⟨⟨HS0, HS1, HS2⟩, HR⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              · unfold owns; iexists _; isplitr
                swap; · iexact HS2
                ipureintro; exact View.read_writes_of_cover _ _ _ _ _ (scover1_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        unfold PhiAt1
        iintro ⟨⟨⟨⟨HS0, HS1, HS2⟩, HR⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _)
              · unfold owns; iexists _; isplitr
                swap; · iexact HS2
                ipureintro; exact View.read_writes_of_cover _ _ _ _ _ (scover1_C_2 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        unfold PhiAt1
        iintro ⟨⟨⟨⟨HS0, HS1, HS2⟩, HR⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _)
              · unfold owns; iexists _; isplitr
                swap; · iexact HS2
                ipureintro; exact View.read_writes_of_cover _ _ _ _ _ (scover1_B_2 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch operands' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiAt1
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Fr

end
-- ==== Proof.K.Run.lean ====
/-
  The whole program as a sequence of four items — the host operations that stack the weights and the biases, the
  projection region, the three reshapes, the attention region — and what every buffer holds between them.

  The contents are a fold from the launch memory: after a stretch of host operations, the operations applied; after a
  region, its arrays at what its write-backs leave and every other buffer as the region found it.  The run theorem says
  that every weakly fair execution terminates with every unscoped buffer at the last fold; the arguments are written by no
  item, so they end as launched.
-/
import proofs.«414292_j1580547973071_3_alg».proof.Proof.Gen.Kernel.Launch
import proofs.«414292_j1580547973071_3_alg».proof.Proof.Gen.Kernel.Skeleton
import proofs.«414292_j1580547973071_3_alg».proof.Proof.Gen.Kernel.Points
import proofs.«414292_j1580547973071_3_alg».proof.Proof.K.Region0
import proofs.«414292_j1580547973071_3_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

/-- `main_arg0` ends as launched: no host operation writes it and no region has it among its arrays. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

/-- `main_arg1` ends as launched: no host operation writes it and no region has it among its arrays. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

/-- `main_arg2` ends as launched: no host operation writes it and no region has it among its arrays. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

/-- `main_arg3` ends as launched: no host operation writes it and no region has it among its arrays. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-- `main_arg4` ends as launched: no host operation writes it and no region has it among its arrays. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-- `main_arg5` ends as launched: no host operation writes it and no region has it among its arrays. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

/-- `main_arg6` ends as launched: no host operation writes it and no region has it among its arrays. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the attention region, the scoped rest and the generator register, is its invariant before the
    first point. -/
theorem hin_reg1 (c : Dev nD) :
    iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c)
      ⊢ ((dat1 (V3 m ρ) c).Φ 0 : sProp 𝕄) := by
  have h : iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c)
      ⊢ (Pipeline.ΦA spec1 c : sProp 𝕄) := by
    unfold Pipeline.ΦA
    iintro ⟨Hp, -, Hr⟩
    isplitl [Hr]; · iexact Hr
    iexact Hp
  exact h.trans (hin1 (V3 m ρ) c)

/-- After the last point the invariant gives the scoped rest and the generator register back. -/
theorem hout_reg1 (c : Dev nD) :
    ((dat1 (V3 m ρ) c).Φ (Fin.last cfg1.N) : sProp 𝕄)
      ⊢ iprop((∃ r, prngReg c r) ∗ BI.emp ∗ Pipeline.scopedRest (Ix := Unit) (Name := ℕ) (U := UR sig nD τ) (Lvl := ℕ) (Val := Elt F) spec1 c) := by
  have h : (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
    unfold Pipeline.ΦA
    iintro ⟨Hr, Hp⟩
    isplitl [Hp]; · iexact Hp
    isplitr; · iempintro
    iexact Hr
  exact (hout1 (V3 m ρ) c).trans h

set_option backward.isDefEq.respectTransparency.types false in
/-- The attention region: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    exact hin_reg1 m ρ c
  hout c := by
    rw [Pipeline.ownSems0_none, show (pdats m ρ 1 c).Φ (Fin.last _) = (dat1 (V3 m ρ) c).Φ (Fin.last cfg1.N) from rfl]
    exact hout_reg1 m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.Kernel.Fr

end
-- ==== Proof.KI.Region0.lean ====
/-
  The projection kernel as a pipeline region: what each grid point reads and writes.

  A point `t` of the 32-point grid loads rows `512 t … 512 t + 511` of the flattened input (a block of window 0),
  the whole stacked weight matrix (window 1) and the whole stacked bias row (window 2), and stores the three
  column thirds of `block · weights + bias` into the blocks of the three result arrays (windows 3, 4, 5).
  Stated at the buffer contents `V` the region is entered with, for any float instance.
-/
import proofs.«414292_j1580547973071_3_alg».proof.Proof.Gen.KernelIdeal.Launch
import proofs.«414292_j1580547973071_3_alg».proof.Proof.Gen.KernelIdeal.Skeleton
import proofs.«414292_j1580547973071_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data over the entry contents whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and what it leaves in each result window's buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0

/-- The query third: one whole-buffer store of the first 1024 columns of `block · weights + bias`. -/
def out0_3 (x0 : Vec F S512x1024 .f32) (x1 : Vec F S1024x3072 .bf16) (x2 : Vec F S1x3072 .f32) : Vec F S512x1024 .bf16 :=
  View.canon [⟨r0_0, k0_pay2 (View.ld x0 r0_0) (View.ld x1 r0_1) (View.ld x2 r0_2)⟩]
/-- The key third: columns 1024 … 2047. -/
def out0_4 (x0 : Vec F S512x1024 .f32) (x1 : Vec F S1024x3072 .bf16) (x2 : Vec F S1x3072 .f32) : Vec F S512x1024 .bf16 :=
  View.canon [⟨r0_0, k0_pay3 (View.ld x0 r0_0) (View.ld x1 r0_1) (View.ld x2 r0_2)⟩]
/-- The value third: columns 2048 … 3071. -/
def out0_5 (x0 : Vec F S512x1024 .f32) (x1 : Vec F S1024x3072 .bf16) (x2 : Vec F S1x3072 .f32) : Vec F S512x1024 .bf16 :=
  View.canon [⟨r0_0, k0_pay4 (View.ld x0 r0_0) (View.ld x1 r0_1) (View.ld x2 r0_2)⟩]

/-- One whole-buffer store covers the buffer. -/
theorem cover0_o (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- On whole staging memrefs, the inputs' at contents `x0 x1 x2` and the results' at anything, the body runs to the
    continuation holding the inputs' as they were and each result's at its third. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The proof data of the projection pipeline on core `c`: the arrays as the region finds them; after the body at point
    `t` each input's buffer at its block and each result's at its third of the point's input blocks; the scoped rest and
    the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.R1Base.lean ====
import proofs.«414292_j1580547973071_3_alg».proof.Proof.Gen.KernelIdeal.Launch
import proofs.«414292_j1580547973071_3_alg».proof.Proof.Gen.KernelIdeal.Skeleton
import proofs.«414292_j1580547973071_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first conditional (the reset of the running statistics), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the normalised output's store), from the grid coordinates. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the points of case A output 3 is idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B output 3 is idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C output 3 is live: the case stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated (the choice does not matter). -/
abbrev VO1_3 : View sig .tc .vmem S1x1024x1024 .f32 := (Memref.whole cc1_stg3_0 : Memref sig .tc .vmem S1x1024x1024 .f32).view
/-- Each window's current staging memref at point `t`, spelled as the pipeline passes it, and its wholeness. -/
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows — the running maximum,
    the running denominator and the accumulator, all three carried between points. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
/-- The same as views: what they hold is stated through these. -/
abbrev VS1_0 : View sig .tc .vmem S1024x1 .f32 := scM1_0.view
abbrev VS1_1 : View sig .tc .vmem S1024x1 .f32 := scM1_1.view
abbrev VS1_2 : View sig .tc .vmem S1024x1024 .f32 := scM1_2.view

/-- The scoped rest of the second call split at its own three scratch operands, each whole at some contents; the
    remainder (the first call's staging buffers) unopened. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f) ∗ (∃ f : Buf Val ((c : Thread nD τ).loc cc1_scratch2), ((c : Thread nD τ).loc cc1_scratch2) ↦{fullShare} f))
          ∗ Pipeline.scopedRestBut (Ix := Ix) (Name := Name) (U := U) (Lvl := Lvl) (Val := Val) spec1 c [cc1_scratch0, cc1_scratch1, cc1_scratch2]) :=
  Pipeline.scopedRest_split_of_list spec1 c [cc1_scratch0, cc1_scratch1, cc1_scratch2] (by decide) (by decide)

/-- The scoped buffers that are neither a staging buffer of the second call nor one of its scratch operands, at some
    contents each: carried through the region unopened. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class's invariant with the scratch operands as memrefs owned at some contents: what the body obligation hands
    the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ restBut1 (F := F) c) ∗ (∃ r, prngReg c r)) := by
  unfold Pipeline.ΦA; rw [scopedRest1_split]; simp only [scM1_0, scM1_1, scM1_2, owns_whole]; try rfl

end Cert.KernelIdeal.Fr

end
-- ==== Proof.KI.R1RunA.lean ====
import proofs.«414292_j1580547973071_3_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the three scratch operands, as pieces (last
    first), in case A (the reset taken, the output's store not taken: the first key/value step of a row block), with the
    proof that on whole memrefs — the inputs' at their contents, the idle output's at contents handed back untouched,
    the three scratch operands at anything (the reset overwrites them before they are read) — the body runs to the
    continuation holding the inputs' as they were and each scratch operand with its pieces written. -/
noncomputable def kernelRun1_A (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.KI.R1RunB.lean ====
import proofs.«414292_j1580547973071_3_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The same in case B (neither conditional taken: a middle key/value step): the three scratch operands at the
    contents the point before left (`xs·`); the idle output's buffer handed back untouched. -/
noncomputable def kernelRun1_B (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.KI.R1RunC.lean ====
import proofs.«414292_j1580547973071_3_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The same in case C (the reset not taken, the output's store taken: the last key/value step of a row block): the
    three scratch operands at the contents the point before left (`xs·`); the output's buffer at anything, left with its
    pieces written. -/
noncomputable def kernelRun1_C (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KI.Region1.lean ====
import proofs.«414292_j1580547973071_3_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output's buffer and in the scratch operands -/

/-- Case A stores nothing into the output (the window is idle at its points and not written back there): no pieces —
    a placeholder that nothing consults. -/
def out1_A_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- Case A's pieces for scratch operand 0 (the running maximum) cover it. -/
theorem scover1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What case A leaves in scratch operand 0 (the running maximum): its pieces read back over junk. -/
def sout1_A_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- Case A's pieces for scratch operand 1 (the running denominator) cover it. -/
theorem scover1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What case A leaves in scratch operand 1 (the running denominator): its pieces read back over junk. -/
def sout1_A_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- Case A's pieces for scratch operand 2 (the accumulator) cover it. -/
theorem scover1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What case A leaves in scratch operand 2 (the accumulator): its pieces read back over junk. -/
def sout1_A_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x1024x1024 .bf16) (x2 : Vec F S1x1024x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- Case B stores nothing into the output (the window is idle at its points and not written back there): no pieces —
    a placeholder that nothing consults. -/
def out1_B_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- Case B's pieces for scratch operand 0 (the running maximum) cover it. -/
theorem scover1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What case B leaves in scratch operand 0 (the running maximum): its pieces read back over junk. -/
def sout1_B_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- Case B's pieces for scratch operand 1 (the running denominator) cover it. -/
theorem scover1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What case B leaves in scratch operand 1 (the running denominator): its pieces read back over junk. -/
def sout1_B_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- Case B's pieces for scratch operand 2 (the accumulator) cover it. -/
theorem scover1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What case B leaves in scratch operand 2 (the accumulator): its pieces read back over junk. -/
def sout1_B_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- Case C's pieces for the output tile its block, so they cover it. -/
theorem cover1_C_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What case C leaves in the output's staging buffer: its pieces read back over junk. -/
def out1_C_3 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- Case C's pieces for scratch operand 0 (the running maximum) cover it. -/
theorem scover1_C_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What case C leaves in scratch operand 0 (the running maximum): its pieces read back over junk. -/
def sout1_C_0 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- Case C's pieces for scratch operand 1 (the running denominator) cover it. -/
theorem scover1_C_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What case C leaves in scratch operand 1 (the running denominator): its pieces read back over junk. -/
def sout1_C_1 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- Case C's pieces for scratch operand 2 (the accumulator) cover it. -/
theorem scover1_C_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What case C leaves in scratch operand 2 (the accumulator): its pieces read back over junk. -/
def sout1_C_2 (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

section Region1
-- the TensorCore's buffer contents when the region is entered
variable (V : (c : Dev nD) → (b : Ref sig .tc) → Buf (Elt F) ((c : Thread nD τ).loc b))

/-! ## What the output and the scratch operands hold after each point -/

/-- THE ACCUMULATION. What the output's staging buffer and the three scratch operands hold after the body at position
    `n` (the output, then the running maximum, the running denominator, the accumulator): the case the closed forms
    select at `n`, run at the point's memrefs and input blocks, over what the point before left in the scratch operands. -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The scratch operands at named contents beside the unopened rest and the generator register at some state. -/
def PhiAt1 (c : Dev nD) (s0 : Vec F S1024x1 .f32) (s1 : Vec F S1024x1 .f32) (s2 : Vec F S1024x1024 .f32) : sProp 𝕄 :=
  iprop(iprop(iprop(owns (c : Thread nD τ) scM1_0 fullShare s0 ∗ owns (c : Thread nD τ) scM1_1 fullShare s1 ∗ owns (c : Thread nD τ) scM1_2 fullShare s2) ∗ restBut1 (F := F) c) ∗ (∃ r, prngReg c r))

/-- The region invariant before position `n`: before the first point the class's (every scratch operand at anything);
    afterwards each scratch operand at what the point before left in it, the other scoped buffers at anything and the
    generator register at some state. -/
def PhiS1 (c : Dev nD) : (n : ℕ) → n ≤ cfg1.N → sProp 𝕄
  | 0, _ => Pipeline.ΦA spec1 c
  | n + 1, hn => PhiAt1 c (outsAt1 V c n hn).2.1 (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

/-- After point `n` (before point `n + 1`): the scratch operands at that point's contents. -/
theorem PhiS1_succ (c : Dev nD) (n : ℕ) (hn : n < cfg1.N) :
    PhiS1 V c (n + 1) hn = PhiAt1 c (outsAt1 V c n hn).2.1 (outsAt1 V c n hn).2.2.1 (outsAt1 V c n hn).2.2.2 := rfl

/-- Before a point that is not the first: the scratch operands at what the point before left. -/
theorem PhiS1_pos (c : Dev nD) (n : ℕ) (h : n ≤ cfg1.N) (hz : n ≠ 0) :
    PhiS1 V c n h = PhiAt1 c (outsAt1 V c (n - 1) (by omega)).2.1 (outsAt1 V c (n - 1) (by omega)).2.2.1 (outsAt1 V c (n - 1) (by omega)).2.2.2 := by
  cases n with
  | zero => exact absurd rfl hz
  | succ n => rfl

/-! ## The pipeline's proof data -/

/-- The proof data of the second pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the scratch operands at what the point before left (at anything at the first point) and
    takes them back at this point's contents; the other scoped buffers, the generator register and the core's dues pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        unfold PhiAt1
        iintro ⟨⟨⟨⟨HS0, HS1, HS2⟩, HR⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              · unfold owns; iexists _; isplitr
                swap; · iexact HS2
                ipureintro; exact View.read_writes_of_cover _ _ _ _ _ (scover1_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        unfold PhiAt1
        iintro ⟨⟨⟨⟨HS0, HS1, HS2⟩, HR⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_A_0 c _ _ _ _ _ _ _ _ _ _ _ _ _ _ _ _ _ _ _ _)
              isplitl [HS1]
              · unfold owns; iexists _; isplitr
                swap; · iexact HS1
                ipureintro; exact View.read_writes_of_cover _ _ _ _ _ (scover1_A_1 c _ _ _ _ _ _ _ _ _ _ _ _ _ _ _ _ _ _ _ _)
              · unfold owns; iexists _; isplitr
                swap; · iexact HS2
                ipureintro; exact View.read_writes_of_cover _ _ _ _ _ (scover1_A_2 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        unfold PhiAt1
        iintro ⟨⟨⟨⟨HS0, HS1, HS2⟩, HR⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_C_1 c _ _ _ _ _ _ _ _ _ _ _ _ _ _ _ _ _ _ _ _ _ _ _)
              · unfold owns; iexists _; isplitr
                swap; · iexact HS2
                ipureintro; exact View.read_writes_of_cover _ _ _ _ _ (scover1_C_2 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        unfold PhiAt1
        iintro ⟨⟨⟨⟨HS0, HS1, HS2⟩, HR⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 HR Hg]
        · isplitl [HS0 HS1 HS2 HR]
          · isplitl [HS0 HS1 HS2]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover1_B_1 c _ _ _ _ _ _ _ _ _ _ _ _ _ _ _ _ _ _ _ _ _ _ _)
              · unfold owns; iexists _; isplitr
                swap; · iexact HS2
                ipureintro; exact View.read_writes_of_cover _ _ _ _ _ (scover1_B_2 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class's invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch operands' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold PhiAt1
  iintro ⟨⟨⟨HS0, HS1, HS2⟩, HR⟩, Hg⟩
  isplitl [HS0 HS1 HS2 HR]
  · isplitl [HS0 HS1 HS2]
    · isplitl [HS0]; · iexists _; iexact HS0
      isplitl [HS1]; · iexists _; iexact HS1
      iexists _; iexact HS2
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Fr

end
-- ==== Proof.KI.Run.lean ====
/-
  The whole program as a sequence of four items — the host operations that stack the weights and the biases, the
  projection region, the three reshapes, the attention region — and what every buffer holds between them.

  The contents are a fold from the launch memory: after a stretch of host operations, the operations applied; after a
  region, its arrays at what its write-backs leave and every other buffer as the region found it.  The run theorem says
  that every weakly fair execution terminates with every unscoped buffer at the last fold; the arguments are written by no
  item, so they end as launched.
-/
import proofs.«414292_j1580547973071_3_alg».proof.Proof.Gen.KernelIdeal.Launch
import proofs.«414292_j1580547973071_3_alg».proof.Proof.Gen.KernelIdeal.Skeleton
import proofs.«414292_j1580547973071_3_alg».proof.Proof.Gen.KernelIdeal.Points
import proofs.«414292_j1580547973071_3_alg».proof.Proof.KI.Region0
import proofs.«414292_j1580547973071_3_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (the projection region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

/-- `main_arg0` ends as launched: no host operation writes it and no region has it among its arrays. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg0) := rfl

/-- `main_arg1` ends as launched: no host operation writes it and no region has it among its arrays. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg1) := rfl

/-- `main_arg2` ends as launched: no host operation writes it and no region has it among its arrays. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg2) := rfl

/-- `main_arg3` ends as launched: no host operation writes it and no region has it among its arrays. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg3) := rfl

/-- `main_arg4` ends as launched: no host operation writes it and no region has it among its arrays. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg4) := rfl

/-- `main_arg5` ends as launched: no host operation writes it and no region has it among its arrays. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg5) := rfl

/-- `main_arg6` ends as launched: no host operation writes it and no region has it among its arrays. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))
    _ = m ((c : Thread nD τ).loc main_arg6) := rfl

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands the attention region, the scoped rest and the generator register, is its invariant before the
    first point. -/
theorem hin_reg1 (c : Dev nD) :
    iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c)
      ⊢ ((dat1 (V3 m ρ) c).Φ 0 : sProp 𝕄) := by
  have h : iprop((∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c)
      ⊢ (Pipeline.ΦA spec1 c : sProp 𝕄) := by
    unfold Pipeline.ΦA
    iintro ⟨Hp, -, Hr⟩
    isplitl [Hr]; · iexact Hr
    iexact Hp
  exact h.trans (hin1 (V3 m ρ) c)

/-- After the last point the invariant gives the scoped rest and the generator register back. -/
theorem hout_reg1 (c : Dev nD) :
    ((dat1 (V3 m ρ) c).Φ (Fin.last cfg1.N) : sProp 𝕄)
      ⊢ iprop((∃ r, prngReg c r) ∗ BI.emp ∗ Pipeline.scopedRest (Ix := Unit) (Name := ℕ) (U := UR sig nD τ) (Lvl := ℕ) (Val := Elt F) spec1 c) := by
  have h : (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
    unfold Pipeline.ΦA
    iintro ⟨Hr, Hp⟩
    isplitl [Hp]; · iexact Hp
    isplitr; · iempintro
    iexact Hr
  exact (hout1 (V3 m ρ) c).trans h

set_option backward.isDefEq.respectTransparency.types false in
/-- The attention region: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    exact hin_reg1 m ρ c
  hout c := by
    rw [Pipeline.ownSems0_none, show (pdats m ρ 1 c).Φ (Fin.last _) = (dat1 (V3 m ρ) c).Φ (Fin.last cfg1.N) from rfl]
    exact hout_reg1 m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c)⟩) (run_all m ρ)

end Cert.KernelIdeal.Fr

end
-- ==== Proof.Spec.Defs.lean ====
/-
  The mathematics the two programs share, as definitions over the extended reals.

  Attention for one batch entry: queries, keys and values are affine images of the rows of the input,
  the scores are the query-key inner products divided by 32 (the square root of the embedding width 1024),
  and each output row is the softmax-weighted average of the value rows.  The kernel computes the same
  average tile by tile: it walks over four tiles of 1024 keys keeping a running maximum, a running
  denominator and a running numerator, rescaling the latter two whenever the maximum grows.
-/
import Idealize.ShloMosaic.PureOps.Ideal
import Idealize.ShloMosaic.Lib.ValueIdx

noncomputable section

namespace Cert.Spec

open Idealize.ShloMosaic Idealize.ShloMosaic.ValueIdx

/-- An extended real that is a real number. -/
def IsReal (x : EReal) : Prop := x ≠ ⊤ ∧ x ≠ ⊥

/-- Key `k` of tile `j` among the 4096 keys. -/
def tile (j : Fin 4) (k : Fin 1024) : Fin 4096 := ⟨j.val * 1024 + k.val, by omega⟩

/-- One step of the running (maximum, denominator, numerator) over one tile with scores `s` and values `v`:
    the new maximum, and the old denominator and numerator rescaled by `exp (old maximum - new maximum)`
    plus the tile's own exponentials taken against the new maximum. -/
def flashStep {κ : Type} [Fintype κ] (st : EReal × EReal × EReal) (s v : κ → EReal) : EReal × EReal × EReal :=
  let m' : EReal := max st.1 (Finset.univ.fold max ⊥ s)
  let α : EReal := Ideal.exp (st.1 - m')
  (m', α * st.2.1 + ∑ k, Ideal.exp (s k - m'), α * st.2.2 + ∑ k, Ideal.exp (s k - m') * v k)

/-- The four steps from the start triple `(neg, 0, 0)`. -/
def flashRun {κ : Type} [Fintype κ] (neg : EReal) (s v : Fin 4 → κ → EReal) : EReal × EReal × EReal :=
  flashStep (flashStep (flashStep (flashStep (neg, 0, 0) (s 0) (v 0)) (s 1) (v 1)) (s 2) (v 2)) (s 3) (v 3)

/-- The softmax-weighted average of `V` with scores `S`, the maximum taken as `max ⊥ (fold max ⊥ S)`. -/
def softmaxAv {ν : Type} [Fintype ν] (S V : ν → EReal) : EReal :=
  ∑ n, Ideal.div (Ideal.exp (S n - max ⊥ (Finset.univ.fold max ⊥ S)))
      (∑ n', Ideal.exp (S n' - max ⊥ (Finset.univ.fold max ⊥ S))) * V n

/-! ## The projections, the scores and the result, index by index -/

/-- Row `(b, i)` of the input times row `d` of a weight matrix, plus the bias: one entry of a projection. -/
def proj (x : (⟨3, ![4, 4096, 1024]⟩ : Shape).Idx → EReal) (W : (⟨2, ![1024, 1024]⟩ : Shape).Idx → EReal)
    (bias : (⟨1, ![1024]⟩ : Shape).Idx → EReal) (b : Fin 4) (i : Fin 4096) (d : Fin 1024) : EReal :=
  (∑ e : Fin 1024, x (ix3 b i e) * W (ix2 d e)) + bias (ix1 d)

/-- The score of query row `i` against key row `n` in batch entry `b`: their inner product divided by 32. -/
def score (x : (⟨3, ![4, 4096, 1024]⟩ : Shape).Idx → EReal) (Wq : (⟨2, ![1024, 1024]⟩ : Shape).Idx → EReal)
    (bq : (⟨1, ![1024]⟩ : Shape).Idx → EReal) (Wk : (⟨2, ![1024, 1024]⟩ : Shape).Idx → EReal)
    (bk : (⟨1, ![1024]⟩ : Shape).Idx → EReal) (b : Fin 4) (i n : Fin 4096) : EReal :=
  Ideal.div (∑ d : Fin 1024, proj x Wq bq b i d * proj x Wk bk b n d) ((32 : ℝ) : EReal)

/-- The attention output at `(b, i, d)`: the softmax-weighted average over the keys `n` of the value entries `(b, n, d)`. -/
def attn (x : (⟨3, ![4, 4096, 1024]⟩ : Shape).Idx → EReal) (Wq : (⟨2, ![1024, 1024]⟩ : Shape).Idx → EReal)
    (bq : (⟨1, ![1024]⟩ : Shape).Idx → EReal) (Wk : (⟨2, ![1024, 1024]⟩ : Shape).Idx → EReal)
    (bk : (⟨1, ![1024]⟩ : Shape).Idx → EReal) (Wv : (⟨2, ![1024, 1024]⟩ : Shape).Idx → EReal)
    (bv : (⟨1, ![1024]⟩ : Shape).Idx → EReal) (b : Fin 4) (i : Fin 4096) (d : Fin 1024) : EReal :=
  softmaxAv (fun n : Fin 4096 => score x Wq bq Wk bk b i n) (fun n : Fin 4096 => proj x Wv bv b n d)

end Cert.Spec

end
-- ==== Proof.Val.Ref.lean ====
/-
  The reference program read at the extended reals, index by index: its value at (b, i, d) is the
  softmax-weighted average of the value rows, with the scores the query-key inner products divided by 32.

  Each stage of the program is read at an index built from its coordinates: the three projections are a row of
  the input times a row of a weight matrix plus the bias; the scores are their inner products over the embedding,
  divided by 32; the row maximum is the fold of max over the 4096 keys started at the bottom element; the
  exponentials, their sum and the quotient follow pointwise; the last contraction is the weighted sum of values.
-/
import proofs.«414292_j1580547973071_3_alg».proof.Proof.Gen.ReferenceIdeal.Run
import proofs.«414292_j1580547973071_3_alg».proof.Proof.Gen.ReferenceIdeal.Read
import proofs.«414292_j1580547973071_3_alg».proof.Proof.Spec.Defs
import Idealize.ShloMosaic.Lib.ValueIdx
import Idealize.ShloMosaic.Lib.Pipeline.Value
import Idealize.ShloMosaic.PureOps.Ideal.Laws
import Idealize.ShloMosaic.PureOps.Reduce

noncomputable section

namespace Cert.RefVal

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## The three literals -/

/-- The pattern 0xFF800000 is minus infinity. -/
theorem ofBits_neg_inf : Ideal.ofBits .f32 0xFF800000#32 = (⊥ : EReal) := by
  simp [Ideal.ofBits, Ideal.ieee]

/-- The pattern 0x42000000 is 32. -/
theorem ofBits_thirty_two : Ideal.ofBits .f32 0x42000000#32 = ((32 : ℝ) : EReal) := by
  simp [Ideal.ofBits, Ideal.ieee]
  rw [← EReal.coe_mul]
  norm_num

variable (x0 : (⟨S4x4096x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal))

/-! ## The projections: a row of the input times a row of the weights, plus the bias -/

theorem v3_at (b : Fin 4) (i : Fin 4096) (d : Fin 1024) :
    val_main_v3 (F := Ideal) x0 x1 x2 (ix3 b i d) = Cert.Spec.proj x0 x1 x2 b i d := by
  rw [val_main_v3_apply, val_main_v0_apply, val_main_v2_apply, val_main_v1_apply]
  unfold Cert.Spec.proj
  rw [Ideal.addf_def]
  refine congrArg₂ (· + ·) (Finset.sum_congr rfl fun e _ => ?_) ?_
  · refine congrArg₂ (· * ·) (congrArg x0 ?_) (congrArg x1 ?_)
    · exact funext fun a => match a with | ⟨0, _⟩ => rfl | ⟨1, _⟩ => rfl | ⟨2, _⟩ => rfl
    · exact funext fun a => match a with | ⟨0, _⟩ => rfl | ⟨1, _⟩ => rfl
  · exact congrArg x2 (funext fun a => match a with | ⟨0, _⟩ => rfl)

theorem v7_at (b : Fin 4) (i : Fin 4096) (d : Fin 1024) :
    val_main_v7 (F := Ideal) x0 x3 x4 (ix3 b i d) = Cert.Spec.proj x0 x3 x4 b i d := by
  rw [val_main_v7_apply, val_main_v4_apply, val_main_v6_apply, val_main_v5_apply]
  unfold Cert.Spec.proj
  rw [Ideal.addf_def]
  refine congrArg₂ (· + ·) (Finset.sum_congr rfl fun e _ => ?_) ?_
  · refine congrArg₂ (· * ·) (congrArg x0 ?_) (congrArg x3 ?_)
    · exact funext fun a => match a with | ⟨0, _⟩ => rfl | ⟨1, _⟩ => rfl | ⟨2, _⟩ => rfl
    · exact funext fun a => match a with | ⟨0, _⟩ => rfl | ⟨1, _⟩ => rfl
  · exact congrArg x4 (funext fun a => match a with | ⟨0, _⟩ => rfl)

theorem v11_at (b : Fin 4) (i : Fin 4096) (d : Fin 1024) :
    val_main_v11 (F := Ideal) x0 x5 x6 (ix3 b i d) = Cert.Spec.proj x0 x5 x6 b i d := by
  rw [val_main_v11_apply, val_main_v8_apply, val_main_v10_apply, val_main_v9_apply]
  unfold Cert.Spec.proj
  rw [Ideal.addf_def]
  refine congrArg₂ (· + ·) (Finset.sum_congr rfl fun e _ => ?_) ?_
  · refine congrArg₂ (· * ·) (congrArg x0 ?_) (congrArg x5 ?_)
    · exact funext fun a => match a with | ⟨0, _⟩ => rfl | ⟨1, _⟩ => rfl | ⟨2, _⟩ => rfl
    · exact funext fun a => match a with | ⟨0, _⟩ => rfl | ⟨1, _⟩ => rfl
  · exact congrArg x6 (funext fun a => match a with | ⟨0, _⟩ => rfl)

/-! ## The scores: the inner product of a query row and a key row, divided by 32 -/

theorem v12_at (b : Fin 4) (i n : Fin 4096) :
    val_main_v12 (F := Ideal) x0 x1 x2 x3 x4 (ix3 b i n)
      = ∑ d : Fin 1024, Cert.Spec.proj x0 x1 x2 b i d * Cert.Spec.proj x0 x3 x4 b n d := by
  rw [val_main_v12_apply]
  refine Finset.sum_congr rfl fun d _ => ?_
  have hl : lidx_main_v12 (ix3 b i n) d = ix3 b i d :=
    funext fun a => match a with | ⟨0, _⟩ => rfl | ⟨1, _⟩ => rfl | ⟨2, _⟩ => rfl
  have hr : ridx_main_v12 (ix3 b i n) d = ix3 b n d :=
    funext fun a => match a with | ⟨0, _⟩ => rfl | ⟨1, _⟩ => rfl | ⟨2, _⟩ => rfl
  rw [hl, hr, v3_at, v7_at]

theorem v14_at (b : Fin 4) (i n : Fin 4096) :
    val_main_v14 (F := Ideal) x0 x1 x2 x3 x4 (ix3 b i n) = Cert.Spec.score x0 x1 x2 x3 x4 b i n := by
  rw [val_main_v14_apply, v12_at, val_main_v13_apply, val_main_cst_apply, Ideal.hostDivf_def, Ideal.ofBits_def,
    ofBits_thirty_two]
  rfl

/-- The scores of query row `i` of batch entry `b` against the 4096 keys. -/
abbrev sc (b : Fin 4) (i : Fin 4096) : Fin 4096 → EReal := fun n => Cert.Spec.score x0 x1 x2 x3 x4 b i n

/-- The shift of the softmax of that row: its maximum, started at the bottom element. -/
abbrev mx (b : Fin 4) (i : Fin 4096) : EReal := max ⊥ (Finset.univ.fold max ⊥ (sc x0 x1 x2 x3 x4 b i))

/-! ## The row maximum: the fold of max over the keys -/

theorem v15_at (b : Fin 4) (i : Fin 4096) :
    val_main_v15 (F := Ideal) x0 x1 x2 x3 x4 (ix2 b i) = Finset.univ.fold max (⊥ : EReal) (sc x0 x1 x2 x3 x4 b i) := by
  have hR : S4x4096x4096.Reduces [2] S4x4096 := by decide
  have hf : sc x0 x1 x2 x3 x4 b i = fun n : Fin 4096 => val_main_v14 (F := Ideal) x0 x1 x2 x3 x4 (ix3 b i n) :=
    funext fun n => (v14_at x0 x1 x2 x3 x4 b i n).symm
  rw [hf]
  unfold val_main_v15
  generalize val_main_v14 (F := Ideal) x0 x1 x2 x3 x4 = y
  refine (Host.reduce_eq_fold_single (FloatOps.maximumf (F := Ideal) (φ := .f32)) y (val_main_cst_0 (F := Ideal)) _ hR h_S_
    (ix2 b i)).trans ?_
  rw [val_main_cst_0_apply, Ideal.ofBits_def, ofBits_neg_inf]
  show (Finset.univ : Finset (Fin 4096)).fold max (⊥ : EReal) (fun n : Fin 4096 => y (hR.lift (ix2 b i) n)) = _
  refine Finset.fold_congr fun n _ => congrArg y ?_
  exact funext fun a => match a with | ⟨0, _⟩ => rfl | ⟨1, _⟩ => rfl | ⟨2, _⟩ => rfl

theorem v17_at (b : Fin 4) (i : Fin 4096) :
    val_main_v17 (F := Ideal) x0 x1 x2 x3 x4 (ix2 b i) = mx x0 x1 x2 x3 x4 b i := by
  rw [val_main_v17_apply, v15_at, val_main_v16_apply, val_main_cst_1_apply, Ideal.maximumf_def, Ideal.ofBits_def,
    ofBits_neg_inf]

theorem v19_at (b : Fin 4) (i n : Fin 4096) :
    val_main_v19 (F := Ideal) x0 x1 x2 x3 x4 (ix3 b i n) = mx x0 x1 x2 x3 x4 b i := by
  rw [val_main_v19_apply, val_main_v18_apply]
  have h : idx_main_v18 (idx_main_v19 (ix3 b i n)) = ix2 b i :=
    funext fun a => match a with | ⟨0, _⟩ => rfl | ⟨1, _⟩ => rfl
  rw [h, v17_at]

/-! ## The exponentials, their sum, and the weights -/

theorem v21_at (b : Fin 4) (i n : Fin 4096) :
    val_main_v21 (F := Ideal) x0 x1 x2 x3 x4 (ix3 b i n)
      = Ideal.exp (sc x0 x1 x2 x3 x4 b i n - mx x0 x1 x2 x3 x4 b i) := by
  rw [val_main_v21_apply, val_main_v20_apply, v14_at, v19_at, Ideal.subf_def, Ideal.hostUnary_exp_def]

theorem v22_at (b : Fin 4) (i : Fin 4096) :
    val_main_v22 (F := Ideal) x0 x1 x2 x3 x4 (ix2 b i)
      = ∑ n : Fin 4096, Ideal.exp (sc x0 x1 x2 x3 x4 b i n - mx x0 x1 x2 x3 x4 b i) := by
  rw [val_main_v22_apply, val_main_cst_2_apply, Ideal.ofBits_def, Ideal.ofBits_zero_f32, zero_add]
  refine Finset.sum_congr rfl fun n _ => ?_
  have h : idx_main_v22 (ix2 b i) n = ix3 b i n :=
    funext fun a => match a with | ⟨0, _⟩ => rfl | ⟨1, _⟩ => rfl | ⟨2, _⟩ => rfl
  rw [h, v21_at]

theorem v25_at (b : Fin 4) (i n : Fin 4096) :
    val_main_v25 (F := Ideal) x0 x1 x2 x3 x4 (ix3 b i n)
      = Ideal.div (Ideal.exp (sc x0 x1 x2 x3 x4 b i n - mx x0 x1 x2 x3 x4 b i))
          (∑ n' : Fin 4096, Ideal.exp (sc x0 x1 x2 x3 x4 b i n' - mx x0 x1 x2 x3 x4 b i)) := by
  rw [val_main_v25_apply, v21_at, val_main_v24_apply, val_main_v23_apply]
  have h : idx_main_v23 (idx_main_v24 (ix3 b i n)) = ix2 b i :=
    funext fun a => match a with | ⟨0, _⟩ => rfl | ⟨1, _⟩ => rfl
  rw [h, v22_at, Ideal.hostDivf_def]

/-! ## The result -/

/-- The reference's value at `(b, i, d)` is the attention output there. -/
theorem ref_apply (b : Fin 4) (i : Fin 4096) (d : Fin 1024) :
    val_main_v26 (F := Ideal) x0 x1 x2 x3 x4 x5 x6 (ix3 b i d) = Cert.Spec.attn x0 x1 x2 x3 x4 x5 x6 b i d := by
  rw [val_main_v26_apply]
  unfold Cert.Spec.attn Cert.Spec.softmaxAv
  refine Finset.sum_congr rfl fun n _ => ?_
  have hl : lidx_main_v26 (ix3 b i d) n = ix3 b i n :=
    funext fun a => match a with | ⟨0, _⟩ => rfl | ⟨1, _⟩ => rfl | ⟨2, _⟩ => rfl
  have hr : ridx_main_v26 (ix3 b i d) n = ix3 b n d :=
    funext fun a => match a with | ⟨0, _⟩ => rfl | ⟨1, _⟩ => rfl | ⟨2, _⟩ => rfl
  rw [hl, hr, v25_at, v11_at]

/-- The same for the term the reference's run leaves in its result buffer. -/
theorem ref_result (m : (ℓ : Loc nD τ sig) → Buf (Elt Ideal) ℓ) (c : Dev nD) (b : Fin 4) (i : Fin 4096) (d : Fin 1024) :
    Cert.ReferenceIdeal.Value.res_main_v26 (F := Ideal) m c (ix3 b i d)
      = Cert.Spec.attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) b i d := by
  rw [val_main_v26_eq]
  exact ref_apply _ _ _ _ _ _ _ b i d

end Cert.RefVal

end
-- ==== Proof.LibNary3.lean ====
/-
  The result of a host operation over THREE operand references, read back after the operation.

  A `stablehlo.concatenate` of three operands prints as `StableHlo.nary ![x, a, b] y f`: the function `f` applied to
  the family of the operands' contents.  Stated with each operand's contents AT ITS OWN REFERENCE
  (`Fin.cons (F ↑x) (Fin.cons (F ↑a) (Fin.cons (F ↑b) …))` in place of `fun k => F ↑(![x, a, b] k)`), so that the
  contents of the three operands can be rewritten further, one reference at a time, when the operation sits in the
  middle of a list of operations whose buffer contents are computed by folding over the list.
-/
import Idealize.ShloMosaic.Lib.StableHlo.Run

noncomputable section

namespace Idealize.ShloMosaic.StableHlo

variable {τ : Topo} {sig : RefSig} {Val : EltTy → Type}
variable {x a b y : Ref sig .tc}

/-- `nary` over a literal family of three references: the result is the function at the three operands' contents, each
    read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference hidden from the simplifier's index, for use as a `simp` lemma. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Val.Host.lean ====
/-
  What the buffers hold after each stretch of host operations, index by index.

  The first stretch reshapes the input to a matrix of 16384 rows, scales the query weights and the query bias by
  1/32, transposes the three weight matrices and stacks them side by side along the columns (a 1024 x 3072 matrix),
  and stacks the three biases the same way (a 1 x 3072 row).  The second stretch reshapes the three projections back
  to four batch entries of 4096 rows.  Everything is stated for an arbitrary start valuation.
-/
import proofs.«414292_j1580547973071_3_alg».proof.Proof.Gen.KernelIdeal.Launch
import proofs.«414292_j1580547973071_3_alg».proof.Proof.LibNary3
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost

set_option maxRecDepth 16384

noncomputable section

namespace Cert.KernelIdeal.Val

open Cert.KernelIdeal Cert.KernelIdeal.Gen
open Idealize.ShloMosaic Idealize.ShloMosaic.TcCoe Idealize.ShloMosaic.ValueIdx

/-- The fold over a literal list of host operations computed at one reference: each operation's result at its own
    result reference is its function's value, at any other reference what was there; an operation over three operand
    references included. -/
macro "host_after_results" : tactic =>
  `(tactic| (simp only [StableHlo.after_cons, StableHlo.after_nil]
             repeat (first
               | rw [StableHlo.nullary_result] | rw [StableHlo.unary_result] | rw [StableHlo.binary_result]
               | rw [StableHlo.reshape_result] | rw [StableHlo.nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

variable (W : Valuation τ sig (Elt Ideal))

/-! ## The composed terms -/

theorem host_v0_term : (StableHlo.after (hostOps0 (F := Ideal)) W (Proc.devRef .tc main_v0) : S16384x1024.Idx → EReal)
    = shapeCast S16384x1024 (W (Proc.devRef .tc main_arg0) : S4x4096x1024.Idx → EReal) shapeCasts_S4x4096x1024_S16384x1024 := by
  show StableHlo.after hostOps0 W (Proc.devRef .tc main_v0) = _
  host_after_results
  rfl

/-- The query weights scaled by 1/32 and transposed. -/
abbrev hostWq : S1024x1024.Idx → EReal :=
  truncf (F := Ideal) .bf16 (transpose S1024x1024 [1, 0]
    (mulf (F := Ideal) (W (Proc.devRef .tc main_arg1) : FVec Ideal S1024x1024 .f32)
      (broadcastInDim S1024x1024 ![] bcast_S_S1024x1024 (constant (F := Ideal) S_ .f32 0x3D000000#32)))
    transposes_S1024x1024_S1024x1024_1_0) bitsLt_bf16_f32
/-- The key weights transposed. -/
abbrev hostWk : S1024x1024.Idx → EReal :=
  truncf (F := Ideal) .bf16 (transpose S1024x1024 [1, 0] (W (Proc.devRef .tc main_arg3) : FVec Ideal S1024x1024 .f32)
    transposes_S1024x1024_S1024x1024_1_0) bitsLt_bf16_f32
/-- The value weights transposed. -/
abbrev hostWv : S1024x1024.Idx → EReal :=
  truncf (F := Ideal) .bf16 (transpose S1024x1024 [1, 0] (W (Proc.devRef .tc main_arg5) : FVec Ideal S1024x1024 .f32)
    transposes_S1024x1024_S1024x1024_1_0) bitsLt_bf16_f32

set_option maxHeartbeats 4000000 in
theorem host_v11_term : (StableHlo.after (hostOps0 (F := Ideal)) W (Proc.devRef .tc main_v11) : S1024x3072.Idx → EReal)
    = concatenate S1024x3072 1 [⟨S1024x1024, hostWq W⟩, ⟨S1024x1024, hostWk W⟩, ⟨S1024x1024, hostWv W⟩]
        concatenates_S1024x1024_S1024x1024_S1024x1024_S1024x3072_d1 := by
  show StableHlo.after hostOps0 W (Proc.devRef .tc main_v11) = _
  host_after_results
  rfl

/-- The query bias scaled by 1/32, as a row. -/
abbrev hostBq : S1x1024.Idx → EReal :=
  shapeCast S1x1024 (mulf (F := Ideal) (W (Proc.devRef .tc main_arg2) : FVec Ideal S1024 .f32)
      (broadcastInDim S1024 ![] bcast_S_S1024 (constant (F := Ideal) S_ .f32 0x3D000000#32))) shapeCasts_S1024_S1x1024
/-- The key bias as a row. -/
abbrev hostBk : S1x1024.Idx → EReal :=
  shapeCast S1x1024 (W (Proc.devRef .tc main_arg4) : S1024.Idx → EReal) shapeCasts_S1024_S1x1024
/-- The value bias as a row. -/
abbrev hostBv : S1x1024.Idx → EReal :=
  shapeCast S1x1024 (W (Proc.devRef .tc main_arg6) : S1024.Idx → EReal) shapeCasts_S1024_S1x1024

set_option maxHeartbeats 4000000 in
theorem host_v15_term : (StableHlo.after (hostOps0 (F := Ideal)) W (Proc.devRef .tc main_v15) : S1x3072.Idx → EReal)
    = concatenate S1x3072 1 [⟨S1x1024, hostBq W⟩, ⟨S1x1024, hostBk W⟩, ⟨S1x1024, hostBv W⟩]
        concatenates_S1x1024_S1x1024_S1x1024_S1x3072_d1 := by
  show StableHlo.after hostOps0 W (Proc.devRef .tc main_v15) = _
  host_after_results
  rfl

theorem host_v17_term : (StableHlo.after (hostOps1 (F := Ideal)) W (Proc.devRef .tc main_v17) : S4x4096x1024.Idx → EReal)
    = shapeCast S4x4096x1024 (W (Proc.devRef .tc main_v16_0) : S16384x1024.Idx → EReal) shapeCasts_S16384x1024_S4x4096x1024 := by
  show StableHlo.after hostOps1 W (Proc.devRef .tc main_v17) = _
  host_after_results
  rfl
theorem host_v18_term : (StableHlo.after (hostOps1 (F := Ideal)) W (Proc.devRef .tc main_v18) : S4x4096x1024.Idx → EReal)
    = shapeCast S4x4096x1024 (W (Proc.devRef .tc main_v16_1) : S16384x1024.Idx → EReal) shapeCasts_S16384x1024_S4x4096x1024 := by
  show StableHlo.after hostOps1 W (Proc.devRef .tc main_v18) = _
  host_after_results
  rfl
theorem host_v19_term : (StableHlo.after (hostOps1 (F := Ideal)) W (Proc.devRef .tc main_v19) : S4x4096x1024.Idx → EReal)
    = shapeCast S4x4096x1024 (W (Proc.devRef .tc main_v16_2) : S16384x1024.Idx → EReal) shapeCasts_S16384x1024_S4x4096x1024 := by
  show StableHlo.after hostOps1 W (Proc.devRef .tc main_v19) = _
  host_after_results
  rfl

/-! ## Three matrices side by side, three rows side by side, read at an index -/

section Cat
variable {α : Type}

theorem host_cat_mat_0 (x0 x1 x2 : S1024x1024.Idx → α) (e d : Fin 1024) :
    concatenate S1024x3072 1 [⟨S1024x1024, x0⟩, ⟨S1024x1024, x1⟩, ⟨S1024x1024, x2⟩]
        concatenates_S1024x1024_S1024x1024_S1024x1024_S1024x3072_d1 (ix2 e (⟨d.val, by omega⟩ : Fin 3072)) = x0 (ix2 e d) :=
  concatenate_apply_piece (t := S1024x3072) 1 [⟨S1024x1024, x0⟩, ⟨S1024x1024, x1⟩, ⟨S1024x1024, x2⟩] concatenates_S1024x1024_S1024x1024_S1024x1024_S1024x3072_d1 (ix2 e (⟨d.val, by omega⟩ : Fin 3072)) 0 (by simp) S1024x1024 x0 rfl rfl 0 rfl (ix2 e d)
    (fun b hb => match b, hb with | ⟨0, _⟩, _ => rfl | ⟨1, _⟩, hb => absurd rfl hb) (Nat.zero_add _)
theorem host_cat_mat_1 (x0 x1 x2 : S1024x1024.Idx → α) (e d : Fin 1024) :
    concatenate S1024x3072 1 [⟨S1024x1024, x0⟩, ⟨S1024x1024, x1⟩, ⟨S1024x1024, x2⟩]
        concatenates_S1024x1024_S1024x1024_S1024x1024_S1024x3072_d1 (ix2 e (⟨1024 + d.val, by omega⟩ : Fin 3072)) = x1 (ix2 e d) :=
  concatenate_apply_piece (t := S1024x3072) 1 [⟨S1024x1024, x0⟩, ⟨S1024x1024, x1⟩, ⟨S1024x1024, x2⟩] concatenates_S1024x1024_S1024x1024_S1024x1024_S1024x3072_d1 (ix2 e (⟨1024 + d.val, by omega⟩ : Fin 3072)) 1 (by simp) S1024x1024 x1 rfl rfl 1024 rfl (ix2 e d)
    (fun b hb => match b, hb with | ⟨0, _⟩, _ => rfl | ⟨1, _⟩, hb => absurd rfl hb) rfl
theorem host_cat_mat_2 (x0 x1 x2 : S1024x1024.Idx → α) (e d : Fin 1024) :
    concatenate S1024x3072 1 [⟨S1024x1024, x0⟩, ⟨S1024x1024, x1⟩, ⟨S1024x1024, x2⟩]
        concatenates_S1024x1024_S1024x1024_S1024x1024_S1024x3072_d1 (ix2 e (⟨2048 + d.val, by omega⟩ : Fin 3072)) = x2 (ix2 e d) :=
  concatenate_apply_piece (t := S1024x3072) 1 [⟨S1024x1024, x0⟩, ⟨S1024x1024, x1⟩, ⟨S1024x1024, x2⟩] concatenates_S1024x1024_S1024x1024_S1024x1024_S1024x3072_d1 (ix2 e (⟨2048 + d.val, by omega⟩ : Fin 3072)) 2 (by simp) S1024x1024 x2 rfl rfl 2048 rfl (ix2 e d)
    (fun b hb => match b, hb with | ⟨0, _⟩, _ => rfl | ⟨1, _⟩, hb => absurd rfl hb) rfl

theorem host_cat_row_0 (x0 x1 x2 : S1x1024.Idx → α) (d : Fin 1024) :
    concatenate S1x3072 1 [⟨S1x1024, x0⟩, ⟨S1x1024, x1⟩, ⟨S1x1024, x2⟩]
        concatenates_S1x1024_S1x1024_S1x1024_S1x3072_d1 (ix2 (0 : Fin 1) (⟨d.val, by omega⟩ : Fin 3072)) = x0 (ix2 (0 : Fin 1) d) :=
  concatenate_apply_piece (t := S1x3072) 1 [⟨S1x1024, x0⟩, ⟨S1x1024, x1⟩, ⟨S1x1024, x2⟩] concatenates_S1x1024_S1x1024_S1x1024_S1x3072_d1 (ix2 (0 : Fin 1) (⟨d.val, by omega⟩ : Fin 3072)) 0 (by simp) S1x1024 x0 rfl rfl 0 rfl (ix2 (0 : Fin 1) d)
    (fun b hb => match b, hb with | ⟨0, _⟩, _ => rfl | ⟨1, _⟩, hb => absurd rfl hb) (Nat.zero_add _)
theorem host_cat_row_1 (x0 x1 x2 : S1x1024.Idx → α) (d : Fin 1024) :
    concatenate S1x3072 1 [⟨S1x1024, x0⟩, ⟨S1x1024, x1⟩, ⟨S1x1024, x2⟩]
        concatenates_S1x1024_S1x1024_S1x1024_S1x3072_d1 (ix2 (0 : Fin 1) (⟨1024 + d.val, by omega⟩ : Fin 3072)) = x1 (ix2 (0 : Fin 1) d) :=
  concatenate_apply_piece (t := S1x3072) 1 [⟨S1x1024, x0⟩, ⟨S1x1024, x1⟩, ⟨S1x1024, x2⟩] concatenates_S1x1024_S1x1024_S1x1024_S1x3072_d1 (ix2 (0 : Fin 1) (⟨1024 + d.val, by omega⟩ : Fin 3072)) 1 (by simp) S1x1024 x1 rfl rfl 1024 rfl (ix2 (0 : Fin 1) d)
    (fun b hb => match b, hb with | ⟨0, _⟩, _ => rfl | ⟨1, _⟩, hb => absurd rfl hb) rfl
theorem host_cat_row_2 (x0 x1 x2 : S1x1024.Idx → α) (d : Fin 1024) :
    concatenate S1x3072 1 [⟨S1x1024, x0⟩, ⟨S1x1024, x1⟩, ⟨S1x1024, x2⟩]
        concatenates_S1x1024_S1x1024_S1x1024_S1x3072_d1 (ix2 (0 : Fin 1) (⟨2048 + d.val, by omega⟩ : Fin 3072)) = x2 (ix2 (0 : Fin 1) d) :=
  concatenate_apply_piece (t := S1x3072) 1 [⟨S1x1024, x0⟩, ⟨S1x1024, x1⟩, ⟨S1x1024, x2⟩] concatenates_S1x1024_S1x1024_S1x1024_S1x3072_d1 (ix2 (0 : Fin 1) (⟨2048 + d.val, by omega⟩ : Fin 3072)) 2 (by simp) S1x1024 x2 rfl rfl 2048 rfl (ix2 (0 : Fin 1) d)
    (fun b hb => match b, hb with | ⟨0, _⟩, _ => rfl | ⟨1, _⟩, hb => absurd rfl hb) rfl

/-- The 16384-row matrix read as four batch entries of 4096 rows, and back. -/
theorem host_cast_mat_of_batch (x : S4x4096x1024.Idx → α) (r : Fin 16384) (e : Fin 1024) :
    shapeCast S16384x1024 x shapeCasts_S4x4096x1024_S16384x1024 (ix2 r e)
      = x (ix3 (⟨r.val / 4096, by omega⟩ : Fin 4) (⟨r.val % 4096, Nat.mod_lt _ (by decide)⟩ : Fin 4096) e) :=
  shapeCast_apply x _ _ _ (by
    rw [Shape.rowMajor_val_three, Shape.rowMajor_val_two]
    show (r.val / 4096 * 4096 + r.val % 4096) * 1024 + e.val = r.val * 1024 + e.val
    rw [Nat.div_add_mod' r.val 4096])
theorem host_cast_batch_of_mat (x : S16384x1024.Idx → α) (b : Fin 4) (i : Fin 4096) (d : Fin 1024) :
    shapeCast S4x4096x1024 x shapeCasts_S16384x1024_S4x4096x1024 (ix3 b i d)
      = x (ix2 (⟨b.val * 4096 + i.val, by omega⟩ : Fin 16384) d) :=
  shapeCast_apply x _ _ _ (by
    rw [Shape.rowMajor_val_three, Shape.rowMajor_val_two]
    rfl)

end Cat

/-! ## The buffers after the first stretch, index by index -/

/-- Row `r` of the input matrix is row `r % 4096` of batch entry `r / 4096`. -/
theorem after0_v0 (r : Fin 16384) (e : Fin 1024) :
    (StableHlo.after (hostOps0 (F := Ideal)) W (Proc.devRef .tc main_v0) : S16384x1024.Idx → EReal) (ix2 r e)
      = (W (Proc.devRef .tc main_arg0) : S4x4096x1024.Idx → EReal)
          (ix3 (⟨r.val / 4096, by omega⟩ : Fin 4) (⟨r.val % 4096, Nat.mod_lt _ (by decide)⟩ : Fin 4096) e) := by
  rw [host_v0_term]; exact host_cast_mat_of_batch _ r e

/-- Columns 0 … 1023 of the stacked weights: the query weights transposed, times 1/32. -/
theorem after0_v11_q (e d : Fin 1024) :
    (StableHlo.after (hostOps0 (F := Ideal)) W (Proc.devRef .tc main_v11) : S1024x3072.Idx → EReal)
        (ix2 e (⟨d.val, by omega⟩ : Fin 3072))
      = @HMul.hMul EReal EReal EReal instHMul ((W (Proc.devRef .tc main_arg1) : S1024x1024.Idx → EReal) (ix2 d e)) (Ideal.ofBits .f32 0x3D000000#32) := by
  rw [host_v11_term, host_cat_mat_0]
  unfold hostWq
  rw [truncf_apply, transpose_ix2_apply, mulf_apply]
  rfl
/-- Columns 1024 … 2047: the key weights transposed. -/
theorem after0_v11_k (e d : Fin 1024) :
    (StableHlo.after (hostOps0 (F := Ideal)) W (Proc.devRef .tc main_v11) : S1024x3072.Idx → EReal)
        (ix2 e (⟨1024 + d.val, by omega⟩ : Fin 3072))
      = (W (Proc.devRef .tc main_arg3) : S1024x1024.Idx → EReal) (ix2 d e) := by
  rw [host_v11_term, host_cat_mat_1]
  unfold hostWk
  rw [truncf_apply, transpose_ix2_apply]
/-- Columns 2048 … 3071: the value weights transposed. -/
theorem after0_v11_v (e d : Fin 1024) :
    (StableHlo.after (hostOps0 (F := Ideal)) W (Proc.devRef .tc main_v11) : S1024x3072.Idx → EReal)
        (ix2 e (⟨2048 + d.val, by omega⟩ : Fin 3072))
      = (W (Proc.devRef .tc main_arg5) : S1024x1024.Idx → EReal) (ix2 d e) := by
  rw [host_v11_term, host_cat_mat_2]
  unfold hostWv
  rw [truncf_apply, transpose_ix2_apply]

/-- Columns 0 … 1023 of the stacked biases: the query bias times 1/32. -/
theorem after0_v15_q (d : Fin 1024) :
    (StableHlo.after (hostOps0 (F := Ideal)) W (Proc.devRef .tc main_v15) : S1x3072.Idx → EReal)
        (ix2 (0 : Fin 1) (⟨d.val, by omega⟩ : Fin 3072))
      = @HMul.hMul EReal EReal EReal instHMul ((W (Proc.devRef .tc main_arg2) : S1024.Idx → EReal) (ix1 d)) (Ideal.ofBits .f32 0x3D000000#32) := by
  rw [host_v15_term, host_cat_row_0]
  show shapeCast S1x1024 _ shapeCasts_S1024_S1x1024 (ix2 (0 : Fin 1) d) = _
  rw [shapeCast_a_1a_apply]
  rfl
/-- Columns 1024 … 2047: the key bias. -/
theorem after0_v15_k (d : Fin 1024) :
    (StableHlo.after (hostOps0 (F := Ideal)) W (Proc.devRef .tc main_v15) : S1x3072.Idx → EReal)
        (ix2 (0 : Fin 1) (⟨1024 + d.val, by omega⟩ : Fin 3072))
      = (W (Proc.devRef .tc main_arg4) : S1024.Idx → EReal) (ix1 d) := by
  rw [host_v15_term, host_cat_row_1]
  show shapeCast S1x1024 _ shapeCasts_S1024_S1x1024 (ix2 (0 : Fin 1) d) = _
  rw [shapeCast_a_1a_apply]
/-- Columns 2048 … 3071: the value bias. -/
theorem after0_v15_v (d : Fin 1024) :
    (StableHlo.after (hostOps0 (F := Ideal)) W (Proc.devRef .tc main_v15) : S1x3072.Idx → EReal)
        (ix2 (0 : Fin 1) (⟨2048 + d.val, by omega⟩ : Fin 3072))
      = (W (Proc.devRef .tc main_arg6) : S1024.Idx → EReal) (ix1 d) := by
  rw [host_v15_term, host_cat_row_2]
  show shapeCast S1x1024 _ shapeCasts_S1024_S1x1024 (ix2 (0 : Fin 1) d) = _
  rw [shapeCast_a_1a_apply]

/-! ## The buffers after the second stretch, index by index -/

/-- Row `i` of batch entry `b` of a projection is row `b * 4096 + i` of the region's result. -/
theorem after1_v17 (b : Fin 4) (i : Fin 4096) (d : Fin 1024) :
    (StableHlo.after (hostOps1 (F := Ideal)) W (Proc.devRef .tc main_v17) : S4x4096x1024.Idx → EReal) (ix3 b i d)
      = (W (Proc.devRef .tc main_v16_0) : S16384x1024.Idx → EReal) (ix2 (⟨b.val * 4096 + i.val, by omega⟩ : Fin 16384) d) := by
  rw [host_v17_term]; exact host_cast_batch_of_mat _ b i d
theorem after1_v18 (b : Fin 4) (i : Fin 4096) (d : Fin 1024) :
    (StableHlo.after (hostOps1 (F := Ideal)) W (Proc.devRef .tc main_v18) : S4x4096x1024.Idx → EReal) (ix3 b i d)
      = (W (Proc.devRef .tc main_v16_1) : S16384x1024.Idx → EReal) (ix2 (⟨b.val * 4096 + i.val, by omega⟩ : Fin 16384) d) := by
  rw [host_v18_term]; exact host_cast_batch_of_mat _ b i d
theorem after1_v19 (b : Fin 4) (i : Fin 4096) (d : Fin 1024) :
    (StableHlo.after (hostOps1 (F := Ideal)) W (Proc.devRef .tc main_v19) : S4x4096x1024.Idx → EReal) (ix3 b i d)
      = (W (Proc.devRef .tc main_v16_2) : S16384x1024.Idx → EReal) (ix2 (⟨b.val * 4096 + i.val, by omega⟩ : Fin 16384) d) := by
  rw [host_v19_term]; exact host_cast_batch_of_mat _ b i d

/-! ## The scale -/

/-- The f32 pattern `0x3D000000` is the real 2⁻⁵, one thirty-second. -/
theorem host_scale_eq : Ideal.ofBits .f32 0x3D000000#32 = (((1 : ℝ) / 32 : ℝ) : EReal) := by
  simp [Ideal.ofBits, Ideal.ieee, -EReal.coe_mul]; norm_num

end Cert.KernelIdeal.Val

end
-- ==== Proof.Val.Proj.lean ====
/-
  The value of the projection region: what its three result arrays hold at the region's exit, index by index, as a
  function of the contents the region is entered with.

  Point t of the grid multiplies rows 512 t … 512 t + 511 of the input by the whole stacked weight matrix and adds the
  stacked bias row; the three result windows take columns 0 … 1023, 1024 … 2047 and 2048 … 3071 of that block. So entry
  (r, d) of the result array with column offset off is the inner product of input row r with weight column off + d,
  plus bias entry off + d; the 32 blocks of 512 rows tile the 16384 rows.
-/
import proofs.«414292_j1580547973071_3_alg».proof.Proof.KI.Region0
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-! ## The block product at an index -/

theorem lhs_proj_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_proj_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_proj_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_proj_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The matrix product into the zero accumulator, at (p, q): row p of the left operand times column q of the right. -/
theorem matmul_proj_apply (a : FVec Ideal S512x1024 .bf16) (b : FVec Ideal S1024x3072 .bf16) (p : Fin 512) (q : Fin 3072) :
    matmul dot_S512x1024_S1024x3072_S512x3072_1_0_0_1_n_n none a b (constant S512x3072 .f32 0x00000000#32) (ix2 p q)
      = ∑ e : Fin 1024, a (ix2 p e) * b (ix2 e q) := by
  show FloatOps.matmul dot_S512x1024_S1024x3072_S512x3072_1_0_0_1_n_n none a b (constant S512x3072 .f32 0x00000000#32) (ix2 p q) = _
  rw [Ideal.matmul_constant_zero_apply, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p q) ((ValueIdx.contrEquiv1 dot_S512x1024_S1024x3072_S512x3072_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x3072_S512x3072_1_0_0_1_n_n.rhsIdx (ix2 p q) ((ValueIdx.contrEquiv1 dot_S512x1024_S1024x3072_S512x3072_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

/-- The whole 512 × 3072 block at (p, q): row p of the input block times column q of the weights, plus bias entry q. -/
theorem pay1_at (x0 : Vec Ideal S512x1024 .f32) (x1 : Vec Ideal S1024x3072 .bf16) (x2 : Vec Ideal S1x3072 .f32) (p : Fin 512) (q : Fin 3072) :
    k0_pay1 (F := Ideal) x0 x1 x2 (ix2 p q) = (∑ e : Fin 1024, (x0 (ix2 p e) : EReal) * x1 (ix2 e q)) + x2 (ix2 (0 : Fin 1) q) := by
  unfold k0_pay1
  refine (addf_apply _ _ _).trans ?_
  refine congrArg₂ (· + ·) ?_ ?_
  · refine (matmul_proj_apply _ _ p q).trans ?_
    refine Finset.sum_congr rfl fun e _ => ?_
    exact congrArg₂ (· * ·) (congrFun (shapeCast_self x0 shapeCasts_S512x1024_S512x1024) (ix2 p e))
      (congrFun (shapeCast_self x1 shapeCasts_S1024x3072_S1024x3072) (ix2 e q))
  · refine (broadcastTo_apply _ broadcasts_S1x3072_S512x3072 (ix2 p q) (ix2 (0 : Fin 1) q) (fun a => ?_)).trans ?_
    · match a with
      | ⟨0, _⟩ => rfl
      | ⟨1, _⟩ => rfl
    · exact congrFun (shapeCast_self x2 shapeCasts_S1x3072_S1x3072) (ix2 (0 : Fin 1) q)

/-- A slice of 1024 columns from column off, at (p, d), is the block at (p, off + d). -/
theorem slice_apply (off : Nat) (hoff : off + 1024 ≤ 3072) (y : FVec Ideal S512x3072 .f32)
    (h : S512x3072.Slices ![0, off] S512x1024) (p : Fin 512) (d : Fin 1024) :
    extractStridedSlice S512x1024 ![0, off] y h (ix2 p d) = y (ix2 p (⟨off + d.val, by omega⟩ : Fin 3072)) := by
  refine extractStridedSlice_apply (s := S512x3072) (t := S512x1024) ![0, off] y h (ix2 p d) (ix2 p (⟨off + d.val, by omega⟩ : Fin 3072)) (fun a => ?_)
  match a with
  | ⟨0, _⟩ => show p.val = 0 + p.val; omega
  | ⟨1, _⟩ => rfl

theorem hz : (![0, 0] : Fin 2 → Nat) = fun _ => 0 := funext fun a => by fin_cases a <;> rfl

/-- The body's store into result window 3 leaves the payload, the loads being the whole staging buffers. -/
theorem out0_3_eq (x0 : Vec Ideal S512x1024 .f32) (x1 : Vec Ideal S1024x3072 .bf16) (x2 : Vec Ideal S1x3072 .f32) :
    out0_3 (F := Ideal) x0 x1 x2 = k0_pay2 (F := Ideal) x0 x1 x2 := by
  unfold out0_3
  rw [View.canon_unit_zero hz]
  simp only [View.ld_unit_zero (S := S512x1024) hz, View.ld_unit_zero (S := S1024x3072) hz, View.ld_unit_zero (S := S1x3072) hz]

/-- That payload at an index: columns 0 … 1023 of the block product plus the bias. -/
theorem k0_pay2_at (x0 : Vec Ideal S512x1024 .f32) (x1 : Vec Ideal S1024x3072 .bf16) (x2 : Vec Ideal S1x3072 .f32) (p : Fin 512) (d : Fin 1024) :
    k0_pay2 (F := Ideal) x0 x1 x2 (ix2 p d) = k0_pay1 (F := Ideal) x0 x1 x2 (ix2 p (⟨0 + d.val, by omega⟩ : Fin 3072)) := by
  unfold k0_pay2
  refine (truncf_apply _ bitsLt_bf16_f32 (ix2 p d)).trans ?_
  exact slice_apply 0 (by omega) (k0_pay1 (F := Ideal) x0 x1 x2) slices_S512x3072_o0_0_S512x1024 p d

/-- The body's store into result window 4 leaves the payload, the loads being the whole staging buffers. -/
theorem out0_4_eq (x0 : Vec Ideal S512x1024 .f32) (x1 : Vec Ideal S1024x3072 .bf16) (x2 : Vec Ideal S1x3072 .f32) :
    out0_4 (F := Ideal) x0 x1 x2 = k0_pay3 (F := Ideal) x0 x1 x2 := by
  unfold out0_4
  rw [View.canon_unit_zero hz]
  simp only [View.ld_unit_zero (S := S512x1024) hz, View.ld_unit_zero (S := S1024x3072) hz, View.ld_unit_zero (S := S1x3072) hz]

/-- That payload at an index: columns 1024 … 2047 of the block product plus the bias. -/
theorem k0_pay3_at (x0 : Vec Ideal S512x1024 .f32) (x1 : Vec Ideal S1024x3072 .bf16) (x2 : Vec Ideal S1x3072 .f32) (p : Fin 512) (d : Fin 1024) :
    k0_pay3 (F := Ideal) x0 x1 x2 (ix2 p d) = k0_pay1 (F := Ideal) x0 x1 x2 (ix2 p (⟨1024 + d.val, by omega⟩ : Fin 3072)) := by
  unfold k0_pay3
  refine (truncf_apply _ bitsLt_bf16_f32 (ix2 p d)).trans ?_
  exact slice_apply 1024 (by omega) (k0_pay1 (F := Ideal) x0 x1 x2) slices_S512x3072_o0_1024_S512x1024 p d

/-- The body's store into result window 5 leaves the payload, the loads being the whole staging buffers. -/
theorem out0_5_eq (x0 : Vec Ideal S512x1024 .f32) (x1 : Vec Ideal S1024x3072 .bf16) (x2 : Vec Ideal S1x3072 .f32) :
    out0_5 (F := Ideal) x0 x1 x2 = k0_pay4 (F := Ideal) x0 x1 x2 := by
  unfold out0_5
  rw [View.canon_unit_zero hz]
  simp only [View.ld_unit_zero (S := S512x1024) hz, View.ld_unit_zero (S := S1024x3072) hz, View.ld_unit_zero (S := S1x3072) hz]

/-- That payload at an index: columns 2048 … 3071 of the block product plus the bias. -/
theorem k0_pay4_at (x0 : Vec Ideal S512x1024 .f32) (x1 : Vec Ideal S1024x3072 .bf16) (x2 : Vec Ideal S1x3072 .f32) (p : Fin 512) (d : Fin 1024) :
    k0_pay4 (F := Ideal) x0 x1 x2 (ix2 p d) = k0_pay1 (F := Ideal) x0 x1 x2 (ix2 p (⟨2048 + d.val, by omega⟩ : Fin 3072)) := by
  unfold k0_pay4
  refine (truncf_apply _ bitsLt_bf16_f32 (ix2 p d)).trans ?_
  exact slice_apply 2048 (by omega) (k0_pay1 (F := Ideal) x0 x1 x2) slices_S512x3072_o0_2048_S512x1024 p d

/-! ## From the blocks to the arrays -/

section Arrays

variable (V : (c : Dev nD) → (b : Ref sig .tc) → Buf (Elt Ideal) ((c : Thread nD τ).loc b))

/-- The input, the stacked weights and the stacked bias as the region finds them, and their blocks at point t. -/
abbrev xarr (c : Dev nD) : S16384x1024.Idx → EReal := V c main_v0
abbrev warr (c : Dev nD) : S1024x3072.Idx → EReal := V c main_v11
abbrev barr (c : Dev nD) : S1x3072.Idx → EReal := V c main_v15
abbrev xblk (c : Dev nD) (t : Fin cfg0.N) : Vec Ideal S512x1024 .f32 := iblk0 V c 0 t
abbrev wblk (c : Dev nD) (t : Fin cfg0.N) : Vec Ideal S1024x3072 .bf16 := iblk0 V c 1 t
abbrev bblk (c : Dev nD) (t : Fin cfg0.N) : Vec Ideal S1x3072 .f32 := iblk0 V c 2 t

/-- Entry (r, d) of the projection with column offset off: row r of the input times column off + d of the stacked
    weights, plus entry off + d of the stacked bias. -/
def projAt (c : Dev nD) (off : Nat) (hoff : off + 1024 ≤ 3072) (r : Fin 16384) (d : Fin 1024) : EReal :=
  (∑ e : Fin 1024, xarr V c (ix2 r e) * warr V c (ix2 e (⟨off + d.val, by omega⟩ : Fin 3072)))
    + barr V c (ix2 (0 : Fin 1) (⟨off + d.val, by omega⟩ : Fin 3072))

/-- The same as an array. -/
def projArr (c : Dev nD) (off : Nat) (hoff : off + 1024 ≤ 3072) : S16384x1024.Idx → EReal :=
  fun i => projAt V c off hoff ⟨(i 0).val, idx2_lt0 i⟩ ⟨(i 1).val, idx2_lt1 i⟩

/-- Row p of point t's block is row 512 t + p of the array. -/
def rowOf (t : Fin cfg0.N) (p : Fin 512) : Fin 16384 :=
  ⟨512 * t.val + p.val, by have := t.isLt; have hN : cfg0.N = 32 := N_0; omega⟩

/-- The block indices over the grid: the input's and the results' blocks move down the rows with the point, the weights'
    and the bias's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input's block at point t holds rows 512 t … 512 t + 511 of the input. -/
theorem xblk_at (c : Dev nD) (t : Fin cfg0.N) (p : Fin 512) (e : Fin 1024) :
    xblk V c t (ix2 p e) = xarr V c (ix2 (rowOf t p) e) := by
  obtain ⟨e00, e01, e10, e11, e20, e21, e30, e31, e40, e41, e50, e51⟩ := idx_facts t
  show V c main_v0 (((cfg0.win 0).blk t).view.emb (ix2 p e)) = V c main_v0 (ix2 (rowOf t p) e)
  refine congrArg (V c main_v0) (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * e.val = e.val; omega

/-- The weights' block at every point is the whole stacked weight matrix. -/
theorem wblk_at (c : Dev nD) (t : Fin cfg0.N) (e : Fin 1024) (q : Fin 3072) :
    wblk V c t (ix2 e q) = warr V c (ix2 e q) := by
  obtain ⟨e00, e01, e10, e11, e20, e21, e30, e31, e40, e41, e50, e51⟩ := idx_facts t
  show V c main_v11 (((cfg0.win 1).blk t).view.emb (ix2 e q)) = V c main_v11 (ix2 e q)
  refine congrArg (V c main_v11) (funext fun a => Fin.ext ?_)
  match a with
  | ⟨0, _⟩ => show win0_1.index t (0 : Fin 2) * 1024 + 1 * e.val = e.val; omega
  | ⟨1, _⟩ => show win0_1.index t (1 : Fin 2) * 3072 + 1 * q.val = q.val; omega

/-- The bias's block at every point is the whole stacked bias row. -/
theorem bblk_at (c : Dev nD) (t : Fin cfg0.N) (q : Fin 3072) :
    bblk V c t (ix2 (0 : Fin 1) q) = barr V c (ix2 (0 : Fin 1) q) := by
  obtain ⟨e00, e01, e10, e11, e20, e21, e30, e31, e40, e41, e50, e51⟩ := idx_facts t
  show V c main_v15 (((cfg0.win 2).blk t).view.emb (ix2 (0 : Fin 1) q)) = V c main_v15 (ix2 (0 : Fin 1) q)
  refine congrArg (V c main_v15) (funext fun a => Fin.ext ?_)
  match a with
  | ⟨0, _⟩ => show win0_2.index t (0 : Fin 2) * 1 + 1 * 0 = 0; omega
  | ⟨1, _⟩ => show win0_2.index t (1 : Fin 2) * 3072 + 1 * q.val = q.val; omega

/-- The block product at point t, over the arrays. -/
theorem blocks_at (c : Dev nD) (t : Fin cfg0.N) (off : Nat) (hoff : off + 1024 ≤ 3072) (p : Fin 512) (d : Fin 1024) :
    (∑ e : Fin 1024, (xblk V c t (ix2 p e) : EReal) * wblk V c t (ix2 e (⟨off + d.val, by omega⟩ : Fin 3072)))
      + bblk V c t (ix2 (0 : Fin 1) (⟨off + d.val, by omega⟩ : Fin 3072))
      = projAt V c off hoff (rowOf t p) d := by
  unfold projAt
  refine congrArg₂ (· + ·) (Finset.sum_congr rfl fun e _ => congrArg₂ (· * ·) ?_ ?_) ?_
  · exact xblk_at V c t p e
  · exact wblk_at V c t e _
  · exact bblk_at V c t _

/-- Where an element of point t's block of result window 3 sits in the array: row 512 t + p, column d. -/
theorem projArr_emb3 (c : Dev nD) (t : Fin cfg0.N) (off : Nat) (hoff : off + 1024 ≤ 3072) (p : Fin 512) (d : Fin 1024) :
    projArr V c off hoff (((cfg0.win 3).blk t).view.emb (ix2 p d)) = projAt V c off hoff (rowOf t p) d := by
  obtain ⟨e00, e01, e10, e11, e20, e21, e30, e31, e40, e41, e50, e51⟩ := idx_facts t
  unfold projArr
  refine congrArg₂ (projAt V c off hoff) (Fin.ext ?_) (Fin.ext ?_)
  · show win0_3.index t (0 : Fin 2) * 512 + 1 * p.val = 512 * t.val + p.val; omega
  · show win0_3.index t (1 : Fin 2) * 1024 + 1 * d.val = d.val; omega

/-- What the body leaves in result window 3's buffer at point t, at an index of the block. -/
theorem out3_point (c : Dev nD) (t : Fin cfg0.N) (j : S512x1024.Idx) :
    out0_3 (F := Ideal) (xblk V c t) (wblk V c t) (bblk V c t) j
      = projArr V c 0 (by omega) (((cfg0.win 3).blk t).view.emb j) := by
  obtain ⟨p, d, rfl⟩ : ∃ (p : Fin 512) (d : Fin 1024), j = ix2 p d := ⟨j 0, j 1, eq_ix2 j⟩
  refine (congrFun (out0_3_eq (xblk V c t) (wblk V c t) (bblk V c t)) (ix2 p d)).trans ?_
  refine (k0_pay2_at (xblk V c t) (wblk V c t) (bblk V c t) p d).trans ?_
  refine (pay1_at (xblk V c t) (wblk V c t) (bblk V c t) p (⟨0 + d.val, by omega⟩ : Fin 3072)).trans ?_
  refine (blocks_at V c t 0 (by omega) p d).trans ?_
  exact (projArr_emb3 V c t 0 (by omega) p d).symm

/-- What point t writes back to result window 3 is block t of the projection's columns 0 … 1023. -/
theorem flushed3_eq (c : Dev nD) (t : Fin cfg0.N) :
    (dat0 V c).flushed 3 t = ((cfg0.win 3).blk t).view.read (Elt Ideal) (projArr V c 0 (by omega)) := by
  show (cfg0.win 3).cut (grid0.coords t) ((dat0 V c).after 3 t) = _
  rw [after0_3]
  funext j
  exact out3_point V c t j

/-- An index of the array is in point t's block iff each coordinate is in the block's range on its axis. -/
theorem mem_blk3 (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v16_0).slice (win0_3.rect t)).set ↔ _
  rw [View.set_slice_whole, Rect.mem_set_unit]
  exact Iff.rfl

/-- Row r lies in the block of point r / 512. -/
theorem cover3 (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by omega⟩, rfl⟩
  obtain ⟨e00, e01, e10, e11, e20, e21, e30, e31, e40, e41, e50, e51⟩ := idx_facts t
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array of result window 3 at the region's exit. -/
theorem final3 (c : Dev nD) : (dat0 V c).arrAt 3 cfg0.N = projArr V c 0 (by omega) :=
  (dat0 V c).arrAt_eq_of_cover 3 (projArr V c 0 (by omega)) (fun t _ => flushed3_eq V c t) cover3

/-- Where an element of point t's block of result window 4 sits in the array: row 512 t + p, column d. -/
theorem projArr_emb4 (c : Dev nD) (t : Fin cfg0.N) (off : Nat) (hoff : off + 1024 ≤ 3072) (p : Fin 512) (d : Fin 1024) :
    projArr V c off hoff (((cfg0.win 4).blk t).view.emb (ix2 p d)) = projAt V c off hoff (rowOf t p) d := by
  obtain ⟨e00, e01, e10, e11, e20, e21, e30, e31, e40, e41, e50, e51⟩ := idx_facts t
  unfold projArr
  refine congrArg₂ (projAt V c off hoff) (Fin.ext ?_) (Fin.ext ?_)
  · show win0_4.index t (0 : Fin 2) * 512 + 1 * p.val = 512 * t.val + p.val; omega
  · show win0_4.index t (1 : Fin 2) * 1024 + 1 * d.val = d.val; omega

/-- What the body leaves in result window 4's buffer at point t, at an index of the block. -/
theorem out4_point (c : Dev nD) (t : Fin cfg0.N) (j : S512x1024.Idx) :
    out0_4 (F := Ideal) (xblk V c t) (wblk V c t) (bblk V c t) j
      = projArr V c 1024 (by omega) (((cfg0.win 4).blk t).view.emb j) := by
  obtain ⟨p, d, rfl⟩ : ∃ (p : Fin 512) (d : Fin 1024), j = ix2 p d := ⟨j 0, j 1, eq_ix2 j⟩
  refine (congrFun (out0_4_eq (xblk V c t) (wblk V c t) (bblk V c t)) (ix2 p d)).trans ?_
  refine (k0_pay3_at (xblk V c t) (wblk V c t) (bblk V c t) p d).trans ?_
  refine (pay1_at (xblk V c t) (wblk V c t) (bblk V c t) p (⟨1024 + d.val, by omega⟩ : Fin 3072)).trans ?_
  refine (blocks_at V c t 1024 (by omega) p d).trans ?_
  exact (projArr_emb4 V c t 1024 (by omega) p d).symm

/-- What point t writes back to result window 4 is block t of the projection's columns 1024 … 2047. -/
theorem flushed4_eq (c : Dev nD) (t : Fin cfg0.N) :
    (dat0 V c).flushed 4 t = ((cfg0.win 4).blk t).view.read (Elt Ideal) (projArr V c 1024 (by omega)) := by
  show (cfg0.win 4).cut (grid0.coords t) ((dat0 V c).after 4 t) = _
  rw [after0_4]
  funext j
  exact out4_point V c t j

/-- An index of the array is in point t's block iff each coordinate is in the block's range on its axis. -/
theorem mem_blk4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v16_1).slice (win0_4.rect t)).set ↔ _
  rw [View.set_slice_whole, Rect.mem_set_unit]
  exact Iff.rfl

/-- Row r lies in the block of point r / 512. -/
theorem cover4 (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by omega⟩, rfl⟩
  obtain ⟨e00, e01, e10, e11, e20, e21, e30, e31, e40, e41, e50, e51⟩ := idx_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array of result window 4 at the region's exit. -/
theorem final4 (c : Dev nD) : (dat0 V c).arrAt 4 cfg0.N = projArr V c 1024 (by omega) :=
  (dat0 V c).arrAt_eq_of_cover 4 (projArr V c 1024 (by omega)) (fun t _ => flushed4_eq V c t) cover4

/-- Where an element of point t's block of result window 5 sits in the array: row 512 t + p, column d. -/
theorem projArr_emb5 (c : Dev nD) (t : Fin cfg0.N) (off : Nat) (hoff : off + 1024 ≤ 3072) (p : Fin 512) (d : Fin 1024) :
    projArr V c off hoff (((cfg0.win 5).blk t).view.emb (ix2 p d)) = projAt V c off hoff (rowOf t p) d := by
  obtain ⟨e00, e01, e10, e11, e20, e21, e30, e31, e40, e41, e50, e51⟩ := idx_facts t
  unfold projArr
  refine congrArg₂ (projAt V c off hoff) (Fin.ext ?_) (Fin.ext ?_)
  · show win0_5.index t (0 : Fin 2) * 512 + 1 * p.val = 512 * t.val + p.val; omega
  · show win0_5.index t (1 : Fin 2) * 1024 + 1 * d.val = d.val; omega

/-- What the body leaves in result window 5's buffer at point t, at an index of the block. -/
theorem out5_point (c : Dev nD) (t : Fin cfg0.N) (j : S512x1024.Idx) :
    out0_5 (F := Ideal) (xblk V c t) (wblk V c t) (bblk V c t) j
      = projArr V c 2048 (by omega) (((cfg0.win 5).blk t).view.emb j) := by
  obtain ⟨p, d, rfl⟩ : ∃ (p : Fin 512) (d : Fin 1024), j = ix2 p d := ⟨j 0, j 1, eq_ix2 j⟩
  refine (congrFun (out0_5_eq (xblk V c t) (wblk V c t) (bblk V c t)) (ix2 p d)).trans ?_
  refine (k0_pay4_at (xblk V c t) (wblk V c t) (bblk V c t) p d).trans ?_
  refine (pay1_at (xblk V c t) (wblk V c t) (bblk V c t) p (⟨2048 + d.val, by omega⟩ : Fin 3072)).trans ?_
  refine (blocks_at V c t 2048 (by omega) p d).trans ?_
  exact (projArr_emb5 V c t 2048 (by omega) p d).symm

/-- What point t writes back to result window 5 is block t of the projection's columns 2048 … 3071. -/
theorem flushed5_eq (c : Dev nD) (t : Fin cfg0.N) :
    (dat0 V c).flushed 5 t = ((cfg0.win 5).blk t).view.read (Elt Ideal) (projArr V c 2048 (by omega)) := by
  show (cfg0.win 5).cut (grid0.coords t) ((dat0 V c).after 5 t) = _
  rw [after0_5]
  funext j
  exact out5_point V c t j

/-- An index of the array is in point t's block iff each coordinate is in the block's range on its axis. -/
theorem mem_blk5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v16_2).slice (win0_5.rect t)).set ↔ _
  rw [View.set_slice_whole, Rect.mem_set_unit]
  exact Iff.rfl

/-- Row r lies in the block of point r / 512. -/
theorem cover5 (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 32 := N_0
  obtain ⟨t, ht⟩ : ∃ t : Fin cfg0.N, t.val = (i 0).val / 512 := ⟨⟨(i 0).val / 512, by omega⟩, rfl⟩
  obtain ⟨e00, e01, e10, e11, e20, e21, e30, e31, e40, e41, e50, e51⟩ := idx_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The array of result window 5 at the region's exit. -/
theorem final5 (c : Dev nD) : (dat0 V c).arrAt 5 cfg0.N = projArr V c 2048 (by omega) :=
  (dat0 V c).arrAt_eq_of_cover 5 (projArr V c 2048 (by omega)) (fun t _ => flushed5_eq V c t) cover5

/-! ## The three result arrays at the region's exit, at an index -/

theorem arrAt0_3 (c : Dev nD) (r : Fin 16384) (d : Fin 1024) :
    (dat0 (F := Ideal) V c).arrAt 3 cfg0.N (ix2 r d)
      = (∑ e : Fin 1024, xarr V c (ix2 r e) * warr V c (ix2 e (⟨d.val, by omega⟩ : Fin 3072)))
        + barr V c (ix2 (0 : Fin 1) (⟨d.val, by omega⟩ : Fin 3072)) := by
  rw [final3]
  show projAt V c 0 (by omega) r d = _
  unfold projAt
  simp only [Nat.zero_add]

theorem arrAt0_4 (c : Dev nD) (r : Fin 16384) (d : Fin 1024) :
    (dat0 (F := Ideal) V c).arrAt 4 cfg0.N (ix2 r d)
      = (∑ e : Fin 1024, xarr V c (ix2 r e) * warr V c (ix2 e (⟨1024 + d.val, by omega⟩ : Fin 3072)))
        + barr V c (ix2 (0 : Fin 1) (⟨1024 + d.val, by omega⟩ : Fin 3072)) := by
  rw [final4]
  rfl

theorem arrAt0_5 (c : Dev nD) (r : Fin 16384) (d : Fin 1024) :
    (dat0 (F := Ideal) V c).arrAt 5 cfg0.N (ix2 r d)
      = (∑ e : Fin 1024, xarr V c (ix2 r e) * warr V c (ix2 e (⟨2048 + d.val, by omega⟩ : Fin 3072)))
        + barr V c (ix2 (0 : Fin 1) (⟨2048 + d.val, by omega⟩ : Fin 3072)) := by
  rw [final5]
  rfl

end Arrays

end Cert.KernelIdeal.Val

end
-- ==== Proof.KI.FlashSteps.lean ====
/-
  One grid point of the attention kernel as pure functions of what it reads: from the query, key and value blocks and
  the old running maximum `m`, denominator `l` and accumulator `a`, the new ones and (at a row block's last step) the
  normalised output block.  These are the kernel's own payload terms, composed as the body composes them.
-/
import proofs.«414292_j1580547973071_3_alg».proof.Proof.Gen.KernelIdeal.Skeleton

noncomputable section

namespace Cert.KernelIdeal.Fr

open Cert.KernelIdeal Cert.KernelIdeal.Gen Idealize.ShloMosaic

variable {F : FTy → Type} [FloatOps F]

/-- The new running maximum: the old one against the row maxima of the scores `q kᵀ`. -/
def mStep (q k : Vec F S1x1024x1024 .bf16) (m : Vec F S1024x1 .f32) : Vec F S1024x1 .f32 :=
  k1_pay2 (k1_pay9 q k m)
/-- The new denominator: the old one rescaled, plus the row sums of the exponentials. -/
def lStep (q k : Vec F S1x1024x1024 .bf16) (m l : Vec F S1024x1 .f32) : Vec F S1024x1 .f32 :=
  k1_pay12 q k m m l
/-- The new accumulator: the old one rescaled, plus the exponentials times the value block. -/
def aStep (q k v : Vec F S1x1024x1024 .bf16) (m : Vec F S1024x1 .f32) (a : Vec F S1024x1024 .f32) : Vec F S1024x1024 .f32 :=
  k1_pay1 (k1_pay7 v) (k1_pay11 q k m) (k1_pay13 q k m m a)
/-- The output block: the new accumulator divided row by row by the new denominator. -/
def oStep (q k v : Vec F S1x1024x1024 .bf16) (m l : Vec F S1024x1 .f32) (a : Vec F S1024x1024 .f32) : Vec F S1x1024x1024 .f32 :=
  k1_pay3 (aStep q k v m a) (lStep q k m l)

end Cert.KernelIdeal.Fr

end
-- ==== Proof.KI.R1Pieces.lean ====
/-
  What each control case of the attention kernel's body leaves in the three carried buffers (the running maximum, the
  denominator, the accumulator) and in the output block, read as VALUES: every case stores each buffer through the
  whole-shape rectangle at zero offsets, so what is left is the last store's payload, and every load reads either the
  contents the case was entered with or, after a store in the same case, that store's payload.  The payloads are the
  step functions `mStep`, `lStep`, `aStep`, `oStep` of the point's query, key and value blocks and the old contents; at
  a row block's first step the old contents are the reset values.  The second part restates the contents after each
  grid point (`outsAt1`) through these step functions.
-/
import proofs.«414292_j1580547973071_3_alg».proof.Proof.KI.Region1
import proofs.«414292_j1580547973071_3_alg».proof.Proof.KI.FlashSteps
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Each case's pieces, as values -/

/-- The zero offsets of a rank-2 and of a rank-3 rectangle, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

theorem sout1_A_0_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 : Vec F S1x1024x1024 .bf16) (x1 : Vec F S1x1024x1024 .bf16) (x2 : Vec F S1x1024x1024 .bf16) :
    sout1_A_0 c i arg3 harg3 arg4 harg4 arg5 harg5 arg6 harg6 arg7 harg7 arg8 harg8 arg9 harg9 hc0 hc1 x0 x1 x2 = mStep x0 x1 (k1_pay4 (F := F)) := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) hz2]
  unfold mStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3, View.readCov_unit_zero (S := S1024x1) _ hz2, View.readCov_unit_zero (S := S1024x1024) _ hz2]

theorem sout1_A_1_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 : Vec F S1x1024x1024 .bf16) (x1 : Vec F S1x1024x1024 .bf16) (x2 : Vec F S1x1024x1024 .bf16) :
    sout1_A_1 c i arg3 harg3 arg4 harg4 arg5 harg5 arg6 harg6 arg7 harg7 arg8 harg8 arg9 harg9 hc0 hc1 x0 x1 x2 = lStep x0 x1 (k1_pay4 (F := F)) (k1_pay5 (F := F)) := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1) hz2]
  unfold lStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3, View.readCov_unit_zero (S := S1024x1) _ hz2, View.readCov_unit_zero (S := S1024x1024) _ hz2]

theorem sout1_A_2_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i) (x0 : Vec F S1x1024x1024 .bf16) (x1 : Vec F S1x1024x1024 .bf16) (x2 : Vec F S1x1024x1024 .bf16) :
    sout1_A_2 c i arg3 harg3 arg4 harg4 arg5 harg5 arg6 harg6 arg7 harg7 arg8 harg8 arg9 harg9 hc0 hc1 x0 x1 x2 = aStep x0 x1 x2 (k1_pay4 (F := F)) (k1_pay6 (F := F)) := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  rw [View.canon_cons_unit_zero (S := S1024x1024) hz2]
  unfold aStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3, View.readCov_unit_zero (S := S1024x1) _ hz2, View.readCov_unit_zero (S := S1024x1024) _ hz2]

theorem sout1_B_0_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 hc0 hc1 x0 x1 x2 xs0 xs1 xs2 = mStep x0 x1 xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero hz2]
  unfold mStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3]

theorem sout1_B_1_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 hc0 hc1 x0 x1 x2 xs0 xs1 xs2 = lStep x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero hz2]
  unfold lStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3]

theorem sout1_B_2_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 hc0 hc1 x0 x1 x2 xs0 xs1 xs2 = aStep x0 x1 x2 xs0 xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  rw [View.canon_unit_zero hz2]
  unfold aStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3]

theorem sout1_C_0_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 hc0 hc1 x0 x1 x2 xs0 xs1 xs2 = mStep x0 x1 xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero hz2]
  unfold mStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3]

theorem sout1_C_1_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 hc0 hc1 x0 x1 x2 xs0 xs1 xs2 = lStep x0 x1 xs0 xs1 := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero hz2]
  unfold lStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3]

theorem sout1_C_2_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 hc0 hc1 x0 x1 x2 xs0 xs1 xs2 = aStep x0 x1 x2 xs0 xs2 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero hz2]
  unfold aStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3]

theorem out1_C_3_val (c : Dev nD) (i : grid1.Coords) (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (x0 : Vec F S1x1024x1024 .bf16) (x1 : Vec F S1x1024x1024 .bf16) (x2 : Vec F S1x1024x1024 .bf16) (xs0 : Vec F S1024x1 .f32) (xs1 : Vec F S1024x1 .f32) (xs2 : Vec F S1024x1024 .f32) :
    out1_C_3 c i arg3 harg3 arg4 harg4 arg5 harg5 arg6 harg6 arg7 harg7 arg8 harg8 arg9 harg9 hc0 hc1 x0 x1 x2 xs0 xs1 xs2 = oStep x0 x1 x2 xs0 xs1 xs2 := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  rw [View.canon_unit_zero hz3]
  unfold oStep aStep lStep
  simp only [View.readAt_eq_ld, harg3.read_unread, harg4.read_unread, harg5.read_unread, harg7.read_unread, harg8.read_unread, harg9.read_unread, View.ld_unit_zero (S := S1024x1) hz2, View.ld_unit_zero (S := S1024x1024) hz2, View.ld_unit_zero (S := S1x1024x1024) hz3, View.readCov_unit_zero (S := S1024x1) _ hz2, View.readCov_unit_zero (S := S1024x1024) _ hz2]

section Region1
-- the TensorCore's buffer contents when the region is entered
variable (V : (c : Dev nD) → (b : Ref sig .tc) → Buf (Elt F) ((c : Thread nD τ).loc b))

/-! ## The contents after each point, as the step functions of the point's blocks and the contents before -/

/-- After a row block's first key/value step: the three carried buffers hold one step from the reset values. -/
theorem outsAt1_A_val (c : Dev nD) (t : Fin cfg1.N) (h0 : t.val % 4 = 0) :
    (outsAt1 V c t.val t.isLt).2
      = (mStep (iblk1 V c 0 t) (iblk1 V c 1 t) (k1_pay4 (F := F)),
         lStep (iblk1 V c 0 t) (iblk1 V c 1 t) (k1_pay4 (F := F)) (k1_pay5 (F := F)),
         aStep (iblk1 V c 0 t) (iblk1 V c 1 t) (iblk1 V c 2 t) (k1_pay4 (F := F)) (k1_pay6 (F := F))) := by
  have h1 : ¬t.val % 4 = 3 := by omega
  rw [outsAt1_A V c t h0 h1]; dsimp only
  rw [sout1_A_0_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
    sout1_A_1_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t),
    sout1_A_2_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)]

/-- After a middle key/value step: one step from what the point before left. -/
theorem outsAt1_B_val (c : Dev nD) (t : Fin cfg1.N) (h0 : ¬t.val % 4 = 0) (h1 : ¬t.val % 4 = 3) :
    (outsAt1 V c t.val t.isLt).2
      = (mStep (iblk1 V c 0 t) (iblk1 V c 1 t) (outsAt1 V c (t.val - 1) (Nat.lt_of_le_of_lt (Nat.sub_le _ _) t.isLt)).2.1,
         lStep (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1,
         aStep (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2) := by
  rw [outsAt1_B V c t h0 h1]; dsimp only
  rw [sout1_B_0_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_B_1_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_B_2_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-- After a row block's last key/value step: one step from what the point before left, and the output block the new
    accumulator over the new denominator. -/
theorem outsAt1_C_val (c : Dev nD) (t : Fin cfg1.N) (h1 : t.val % 4 = 3) :
    outsAt1 V c t.val t.isLt
      = (oStep (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
         mStep (iblk1 V c 0 t) (iblk1 V c 1 t) (outsAt1 V c (t.val - 1) (Nat.lt_of_le_of_lt (Nat.sub_le _ _) t.isLt)).2.1,
         lStep (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1,
         aStep (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2) := by
  have h0 : ¬t.val % 4 = 0 := by omega
  rw [outsAt1_C V c t h0 h1]
  rw [out1_C_3_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_0_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_1_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
    sout1_C_2_val c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

end Region1

end Cert.KernelIdeal.Fr

end
-- ==== Proof.Val.FlashStep.lean ====
/-
  One grid point of the attention kernel, read entry by entry, is one step of the running triple.

  With the scores of row r against the tile's 1024 keys, s kk = ∑ d', q (0, r, d') * k (0, kk, d'), the new maximum at
  row r is the old one against the fold of max over s; with α the exponential of the old maximum minus the new one, the new
  denominator is α times the old one plus the sum of the exponentials of the shifted scores, and the new accumulator at
  (r, d) is α times the old one plus the sum of those exponentials times the values v (0, kk, d).  The output block
  is the accumulator divided by the denominator of its row.
-/
import proofs.«414292_j1580547973071_3_alg».proof.Proof.KI.FlashSteps
import proofs.«414292_j1580547973071_3_alg».proof.Proof.Spec.Defs
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.KernelIdeal.Fr Idealize.ShloMosaic Idealize.ShloMosaic.ValueIdx

/-! ## Two literals -/

/-- The pattern 0xFF800000 is minus infinity. -/
private theorem ofBits_neg_inf : Ideal.ofBits .f32 0xFF800000#32 = (⊥ : EReal) := by
  simp [Ideal.ofBits, Ideal.ieee]

/-! ## Layout: a column of 1024 entries and its broadcast along the rows -/

/-- A vector of 1024 entries cast to a column reads, at `(i, u)`, the vector at `i`. -/
private theorem column_apply {α : Type} (x : S1024.Idx → α) (i : Fin 1024) (u : Fin 1) :
    shapeCast S1024x1 x shapeCasts_S1024_S1024x1 (ix2 i u) = x (ix1 i) :=
  shapeCast_apply x shapeCasts_S1024_S1024x1 _ _ (by
    have hu : u.val = 0 := by omega
    rw [Shape.rowMajor_val_two, Shape.rowMajor_val_one]
    show i.val = i.val * 1 + u.val
    rw [hu, Nat.mul_one, Nat.add_zero])

/-- A column broadcast to 1024 columns reads, at `(p, c)`, the column at row `p`. -/
private theorem spread_apply {α : Type} (x : S1024x1.Idx → α) (p c : Fin 1024) :
    broadcastTo S1024x1024 x broadcasts_S1024x1_S1024x1024 (ix2 p c) = x (ix2 p (0 : Fin 1)) :=
  broadcastTo_apply x broadcasts_S1024x1_S1024x1024 (ix2 p c) (ix2 p (0 : Fin 1)) fun a => match a with
    | ⟨0, _⟩ => by show p.val = if (1024 : Nat) = 1 then 0 else p.val; rw [if_neg (by decide)]
    | ⟨1, _⟩ => by show 0 = if (1 : Nat) = 1 then 0 else c.val; rw [if_pos rfl]

/-! ## The two products -/

theorem lhs_scores_0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_scores_1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_scores_0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_scores_1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- The product that contracts the second axis of both operands, into the zero accumulator: at `(r, kk)` the inner
    product of row `r` of the left operand and row `kk` of the right one. -/
theorem matmul_rows_apply (x y : FVec Ideal S1024x1024 .bf16) (r kk : Fin 1024) :
    matmul dot_S1024x1024_S1024x1024_S1024x1024_1_1_0_0_n_n none x y (constant (F := Ideal) S1024x1024 .f32 0x00000000#32) (ix2 r kk)
      = ∑ d' : Fin 1024, x (ix2 r d') * y (ix2 kk d') := by
  show FloatOps.matmul dot_S1024x1024_S1024x1024_S1024x1024_1_1_0_0_n_n none x y (constant (F := Ideal) S1024x1024 .f32 0x00000000#32) (ix2 r kk) = _
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r kk) ((ValueIdx.contrEquiv1 dot_S1024x1024_S1024x1024_S1024x1024_1_1_0_0_n_n 1024 rfl rfl).symm k) = ix2 r k := funext fun a => Fin.ext (by
    match a with
    | ⟨0, _⟩ => exact lhs_scores_0 _ _
    | ⟨1, _⟩ => exact (lhs_scores_1 _ _).trans hk)
  have er : dot_S1024x1024_S1024x1024_S1024x1024_1_1_0_0_n_n.rhsIdx (ix2 r kk) ((ValueIdx.contrEquiv1 dot_S1024x1024_S1024x1024_S1024x1024_1_1_0_0_n_n 1024 rfl rfl).symm k) = ix2 kk k := funext fun a => Fin.ext (by
    match a with
    | ⟨0, _⟩ => exact rhs_scores_0 _ _
    | ⟨1, _⟩ => exact (rhs_scores_1 _ _).trans hk)
  rw [el, er]

theorem lhs_values_0 (j : S1024x1024.Idx) (q : dot_S1024x1024_S1024x1024_S1024x1024_1_0_0_1_n_n.contr.Idx) :
    (dot_S1024x1024_S1024x1024_S1024x1024_1_0_0_1_n_n.lhsIdx j q 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_values_1 (j : S1024x1024.Idx) (q : dot_S1024x1024_S1024x1024_S1024x1024_1_0_0_1_n_n.contr.Idx) :
    (dot_S1024x1024_S1024x1024_S1024x1024_1_0_0_1_n_n.lhsIdx j q 1).val = (q ⟨0, by decide⟩).val :=
  dot_S1024x1024_S1024x1024_S1024x1024_1_0_0_1_n_n.lhsIdx_val_of_single rfl j q
theorem rhs_values_0 (j : S1024x1024.Idx) (q : dot_S1024x1024_S1024x1024_S1024x1024_1_0_0_1_n_n.contr.Idx) :
    (dot_S1024x1024_S1024x1024_S1024x1024_1_0_0_1_n_n.rhsIdx j q 0).val = (q ⟨0, by decide⟩).val :=
  dot_S1024x1024_S1024x1024_S1024x1024_1_0_0_1_n_n.rhsIdx_val_of_single rfl j q
theorem rhs_values_1 (j : S1024x1024.Idx) (q : dot_S1024x1024_S1024x1024_S1024x1024_1_0_0_1_n_n.contr.Idx) :
    (dot_S1024x1024_S1024x1024_S1024x1024_1_0_0_1_n_n.rhsIdx j q 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The plain product into the zero accumulator: at `(r, d)` row `r` of the left operand times column `d` of the right. -/
theorem matmul_plain_apply (x : FVec Ideal S1024x1024 .bf16) (y : FVec Ideal S1024x1024 .bf16) (r d : Fin 1024) :
    matmul dot_S1024x1024_S1024x1024_S1024x1024_1_0_0_1_n_n none x y (constant (F := Ideal) S1024x1024 .f32 0x00000000#32) (ix2 r d)
      = ∑ kk : Fin 1024, x (ix2 r kk) * y (ix2 kk d) := by
  show FloatOps.matmul dot_S1024x1024_S1024x1024_S1024x1024_1_0_0_1_n_n none x y (constant (F := Ideal) S1024x1024 .f32 0x00000000#32) (ix2 r d) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r d) ((ValueIdx.contrEquiv1 dot_S1024x1024_S1024x1024_S1024x1024_1_0_0_1_n_n 1024 rfl rfl).symm k) = ix2 r k := funext fun a => Fin.ext (by
    match a with
    | ⟨0, _⟩ => exact lhs_values_0 _ _
    | ⟨1, _⟩ => exact (lhs_values_1 _ _).trans hk)
  have er : dot_S1024x1024_S1024x1024_S1024x1024_1_0_0_1_n_n.rhsIdx (ix2 r d) ((ValueIdx.contrEquiv1 dot_S1024x1024_S1024x1024_S1024x1024_1_0_0_1_n_n 1024 rfl rfl).symm k) = ix2 k d := funext fun a => Fin.ext (by
    match a with
    | ⟨0, _⟩ => exact (rhs_values_0 _ _).trans hk
    | ⟨1, _⟩ => exact rhs_values_1 _ _)
  rw [el, er]

/-! ## The two reductions along a row -/

/-- The maximum along row `r`, started at minus infinity. -/
theorem rowMax_apply (src : FVec Ideal S1024x1024 .f32) (r : Fin 1024) :
    multiReduction (F := Ideal) .maximumf [1] S1024 src 0xFF800000#32 reduces_S1024x1024_S1024 (.inl rfl) rfl (ix1 r)
      = Finset.univ.fold max (⊥ : EReal) (fun kk : Fin 1024 => src (ix2 r kk)) := by
  refine (Ideal.multiReduction_maximumf_single src _ reduces_S1024x1024_S1024 _ _ (ix1 r)).trans ?_
  rw [Ideal.ofBits_def, ofBits_neg_inf]
  show (Finset.univ : Finset (Fin 1024)).fold max (⊥ : EReal)
    (fun kk : Fin 1024 => src (reduces_S1024x1024_S1024.lift (ix1 r) kk)) = _
  refine Finset.fold_congr fun kk _ => congrArg src ?_
  exact funext fun a => match a with | ⟨0, _⟩ => rfl | ⟨1, _⟩ => rfl

/-- The sum along row `r`. -/
theorem rowSum_apply (src : FVec Ideal S1024x1024 .f32) (r : Fin 1024) :
    multiReduction (F := Ideal) .add [1] S1024 src 0x00000000#32 reduces_S1024x1024_S1024 (.inl rfl) rfl (ix1 r)
      = ∑ kk : Fin 1024, src (ix2 r kk) := by
  refine (Ideal.multiReduction_add_single src _ reduces_S1024x1024_S1024 _ _ (ix1 r)).trans ?_
  show ∑ kk : Fin 1024, src (reduces_S1024x1024_S1024.lift (ix1 r) kk) = _
  refine Finset.sum_congr rfl fun kk _ => congrArg src ?_
  exact funext fun a => match a with | ⟨0, _⟩ => rfl | ⟨1, _⟩ => rfl

/-! ## The payloads at an entry -/

/-- Row `r` of the scores: the inner products of query row `r` with the 1024 key rows of the tile. -/
abbrev sc (q k : Vec Ideal S1x1024x1024 .bf16) (r : Fin 1024) : Fin 1024 → EReal :=
  fun kk => ∑ d' : Fin 1024, q (ix3 (0 : Fin 1) r d') * k (ix3 (0 : Fin 1) kk d')

/-- The new maximum of row `r`. -/
abbrev mNew (q k : Vec Ideal S1x1024x1024 .bf16) (m : Vec Ideal S1024x1 .f32) (r : Fin 1024) : EReal :=
  max (m (ix2 r (0 : Fin 1))) (Finset.univ.fold max ⊥ (sc q k r))

variable (q k v : Vec Ideal S1x1024x1024 .bf16) (m l : Vec Ideal S1024x1 .f32) (a : Vec Ideal S1024x1024 .f32)

theorem scores_at (r kk : Fin 1024) : k1_pay8 (F := Ideal) q k (ix2 r kk) = sc q k r kk := by
  show matmul dot_S1024x1024_S1024x1024_S1024x1024_1_1_0_0_n_n none (shapeCast S1024x1024 q shapeCasts_S1x1024x1024_S1024x1024)
    (shapeCast S1024x1024 k shapeCasts_S1x1024x1024_S1024x1024) (constant (F := Ideal) S1024x1024 .f32 0x00000000#32) (ix2 r kk) = _
  rw [matmul_rows_apply]
  refine Finset.sum_congr rfl fun d' _ => ?_
  rw [shapeCast_1ab_ab_apply, shapeCast_1ab_ab_apply]

theorem max_at (r : Fin 1024) : k1_pay9 (F := Ideal) q k m (ix2 r (0 : Fin 1)) = mNew q k m r := by
  show maximumf m (shapeCast S1024x1 (multiReduction (F := Ideal) .maximumf [1] S1024 (k1_pay8 q k) 0xFF800000#32
    reduces_S1024x1024_S1024 (.inl rfl) rfl) shapeCasts_S1024_S1024x1) (ix2 r (0 : Fin 1)) = _
  rw [maximumf_apply, column_apply, rowMax_apply]
  exact congrArg (max _) (Finset.fold_congr fun kk _ => scores_at q k r kk)

theorem rescale_at (m' : Vec Ideal S1024x1 .f32) (r : Fin 1024) :
    k1_pay10 (F := Ideal) q k m m' (ix2 r (0 : Fin 1)) = Ideal.exp (m' (ix2 r (0 : Fin 1)) - mNew q k m r) := by
  show Ideal.exp (m' (ix2 r (0 : Fin 1)) - k1_pay9 (F := Ideal) q k m (ix2 r (0 : Fin 1))) = _
  rw [max_at]

theorem weights_at (r kk : Fin 1024) :
    k1_pay11 (F := Ideal) q k m (ix2 r kk) = Ideal.exp (sc q k r kk - mNew q k m r) := by
  show Ideal.exp (k1_pay8 (F := Ideal) q k (ix2 r kk)
    - broadcastTo S1024x1024 (k1_pay9 (F := Ideal) q k m) broadcasts_S1024x1_S1024x1024 (ix2 r kk)) = _
  rw [spread_apply, scores_at, max_at]

theorem rescaled_at (m' : Vec Ideal S1024x1 .f32) (r d : Fin 1024) :
    k1_pay13 (F := Ideal) q k m m' a (ix2 r d) = Ideal.exp (m' (ix2 r (0 : Fin 1)) - mNew q k m r) * a (ix2 r d) := by
  show mulf (broadcastTo S1024x1024 (k1_pay10 (F := Ideal) q k m m') broadcasts_S1024x1_S1024x1024) a (ix2 r d) = _
  rw [mulf_apply, spread_apply, rescale_at]

/-! ## One step -/

theorem mStep_at (r : Fin 1024) : mStep q k m (ix2 r (0 : Fin 1)) = mNew q k m r := by
  unfold mStep
  show shapeCast S1024x1 (k1_pay9 (F := Ideal) q k m) shapeCasts_S1024x1_S1024x1 (ix2 r (0 : Fin 1)) = _
  rw [shapeCast_self, max_at]

theorem lStep_at (r : Fin 1024) :
    lStep q k m l (ix2 r (0 : Fin 1))
      = Ideal.exp (m (ix2 r (0 : Fin 1)) - mNew q k m r) * l (ix2 r (0 : Fin 1))
        + ∑ kk : Fin 1024, Ideal.exp (sc q k r kk - mNew q k m r) := by
  unfold lStep
  show shapeCast S1024x1 (addf (mulf (k1_pay10 (F := Ideal) q k m m) l)
    (shapeCast S1024x1 (multiReduction (F := Ideal) .add [1] S1024 (k1_pay11 q k m) 0x00000000#32
      reduces_S1024x1024_S1024 (.inl rfl) rfl) shapeCasts_S1024_S1024x1)) shapeCasts_S1024x1_S1024x1 (ix2 r (0 : Fin 1)) = _
  rw [shapeCast_self, addf_apply, mulf_apply, column_apply, rowSum_apply, rescale_at]
  exact congrArg (_ + ·) (Finset.sum_congr rfl fun kk _ => weights_at q k m r kk)

theorem aStep_at (r d : Fin 1024) :
    aStep q k v m a (ix2 r d)
      = Ideal.exp (m (ix2 r (0 : Fin 1)) - mNew q k m r) * a (ix2 r d)
        + ∑ kk : Fin 1024, Ideal.exp (sc q k r kk - mNew q k m r) * v (ix3 (0 : Fin 1) kk d) := by
  unfold aStep
  show shapeCast S1024x1024 (addf (k1_pay13 (F := Ideal) q k m m a)
    (matmul dot_S1024x1024_S1024x1024_S1024x1024_1_0_0_1_n_n none (truncf .bf16 (k1_pay11 (F := Ideal) q k m) bitsLt_bf16_f32)
      (shapeCast S1024x1024 v shapeCasts_S1x1024x1024_S1024x1024) (constant (F := Ideal) S1024x1024 .f32 0x00000000#32)))
    shapeCasts_S1024x1024_S1024x1024 (ix2 r d) = _
  rw [shapeCast_self, addf_apply, matmul_plain_apply, rescaled_at]
  refine congrArg (_ + ·) (Finset.sum_congr rfl fun kk _ => ?_)
  rw [truncf_apply, weights_at, shapeCast_1ab_ab_apply]

/-- One grid point is one step of the running triple, entry by entry. -/
theorem step_at (r d : Fin 1024) :
    (mStep q k m (ix2 r (0 : Fin 1)), lStep q k m l (ix2 r (0 : Fin 1)), aStep q k v m a (ix2 r d))
      = Cert.Spec.flashStep (m (ix2 r (0 : Fin 1)), l (ix2 r (0 : Fin 1)), a (ix2 r d)) (sc q k r)
          (fun kk => v (ix3 (0 : Fin 1) kk d)) := by
  unfold Cert.Spec.flashStep
  exact Prod.ext (mStep_at q k m r) (Prod.ext (lStep_at q k m l r) (aStep_at q k v m a r d))

/-- The output block: the new accumulator over the new denominator of its row. -/
theorem oStep_at (r d : Fin 1024) :
    oStep q k v m l a (ix3 (0 : Fin 1) r d) = Ideal.div (aStep q k v m a (ix2 r d)) (lStep q k m l (ix2 r (0 : Fin 1))) := by
  unfold oStep
  generalize aStep q k v m a = A
  generalize lStep q k m l = L
  show shapeCast S1x1024x1024 (divf (F := Ideal) (φ := .f32) A (broadcastTo S1024x1024 (L : FVec Ideal S1024x1 .f32) broadcasts_S1024x1_S1024x1024))
    shapeCasts_S1024x1024_S1x1024x1024 (ix3 (0 : Fin 1) r d) = _
  rw [shapeCast_ab_1ab_apply, divf_apply, spread_apply]

/-! ## The start of a row block -/

theorem reset_m (r : Fin 1024) : (k1_pay4 (F := Ideal)) (ix2 r (0 : Fin 1)) = Ideal.ofBits .f32 0xFF333333#32 := by
  show shapeCast S1024x1 (broadcast S1024x1 (Scalar.ofBits (F := Ideal) .f32 0xFF333333#32)) shapeCasts_S1024x1_S1024x1
    (ix2 r (0 : Fin 1)) = _
  rw [shapeCast_self, broadcast_apply]
  rfl

theorem reset_l (r : Fin 1024) : (k1_pay5 (F := Ideal)) (ix2 r (0 : Fin 1)) = 0 := by
  show shapeCast S1024x1 (broadcast S1024x1 (Scalar.ofBits (F := Ideal) .f32 0x00000000#32)) shapeCasts_S1024x1_S1024x1
    (ix2 r (0 : Fin 1)) = _
  rw [shapeCast_self, broadcast_apply]
  exact Ideal.ofBits_zero_f32

theorem reset_a (r d : Fin 1024) : (k1_pay6 (F := Ideal)) (ix2 r d) = 0 := by
  show shapeCast S1024x1024 (broadcast S1024x1024 (Scalar.ofBits (F := Ideal) .f32 0x00000000#32))
    shapeCasts_S1024x1024_S1024x1024 (ix2 r d) = _
  rw [shapeCast_self, broadcast_apply]
  exact Ideal.ofBits_zero_f32

end Cert.KernelIdeal.Val

end
-- ==== Proof.Val.Flash.lean ====
/-
  The value of the attention region's result array.

  The region walks the grid of 64 points `t = 16 b + 4 qi + j`: batch entry `b`, query tile `qi` of 1024 rows, key/value
  tile `j` of 1024 rows, `j` innermost.  For one `(b, qi)` the four points `j = 0, 1, 2, 3` carry, per query row, a running
  maximum and denominator and, per row and column, a running numerator: the first point starts from the reset values,
  each later point takes one more step over its key/value block, and the last point stores numerator over denominator
  into the output block, which is then written back as block `(b, qi, 0)` of the result array.  Read through the blocks
  (a block's coordinate is block index × block size + the coordinate inside the block), the entry `(b, i, d)` of the
  result array is therefore the four steps over the scores of query row `i` against the four key tiles and column `d` of
  the four value tiles, then the division.

  The chain is first proved from the per-point contents of the buffers and the arithmetic of one step at an index taken
  as hypotheses, and these are then supplied.
-/
import proofs.«414292_j1580547973071_3_alg».proof.Proof.KI.Region1
import proofs.«414292_j1580547973071_3_alg».proof.Proof.KI.R1Pieces
import proofs.«414292_j1580547973071_3_alg».proof.Proof.Val.FlashStep
import proofs.«414292_j1580547973071_3_alg».proof.Proof.KI.FlashSteps
import proofs.«414292_j1580547973071_3_alg».proof.Proof.Spec.Defs
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The arrays and the blocks at their literal types -/

/-- The query, key and value arrays as the region finds them. -/
abbrev qArr (c : Dev nD) : Vec Ideal S4x4096x1024 .bf16 := V c main_v17
abbrev kArr (c : Dev nD) : Vec Ideal S4x4096x1024 .bf16 := V c main_v18
abbrev vArr (c : Dev nD) : Vec Ideal S4x4096x1024 .bf16 := V c main_v19

/-- The query, key and value blocks of point `t`. -/
abbrev qBlk (c : Dev nD) (t : Fin cfg1.N) : Vec Ideal S1x1024x1024 .bf16 := iblk1 V c 0 t
abbrev kBlk (c : Dev nD) (t : Fin cfg1.N) : Vec Ideal S1x1024x1024 .bf16 := iblk1 V c 1 t
abbrev vBlk (c : Dev nD) (t : Fin cfg1.N) : Vec Ideal S1x1024x1024 .bf16 := iblk1 V c 2 t

/-- The block indices of point `t = 16 b + 4 qi + j`: queries and the result move with `(b, qi)`, keys and values
    with `(b, j)`; the last axis is whole. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

/-- Row `r` of the query block of point `t` is row `(t / 4 % 4) · 1024 + r` of batch entry `t / 16`. -/
theorem qBlk_apply (c : Dev nD) (t : Fin cfg1.N) (r d : Fin 1024) (b : Fin 4) (i : Fin 4096)
    (hb : b.val = t.val / 16) (hi : i.val = (t.val / 4 % 4) * 1024 + r.val) :
    qBlk V c t (ix3 (0 : Fin 1) r d) = qArr V c (ix3 b i d) := by
  obtain ⟨e0, e1, e2, -⟩ := idx_facts1 t
  unfold qBlk iblk1
  rw [View.read_apply]
  show V c main_v17 _ = V c main_v17 _
  congr 1
  funext a
  apply Fin.ext
  match a with
  | ⟨0, _⟩ => show win1_0.index t (0 : Fin 3) * 1 + 1 * 0 = b.val; omega
  | ⟨1, _⟩ => show win1_0.index t (1 : Fin 3) * 1024 + 1 * r.val = i.val; omega
  | ⟨2, _⟩ => show win1_0.index t (2 : Fin 3) * 1024 + 1 * d.val = d.val; omega

/-- Row `kk` of the key block of point `t` is row `(t % 4) · 1024 + kk` of batch entry `t / 16`. -/
theorem kBlk_apply (c : Dev nD) (t : Fin cfg1.N) (kk d : Fin 1024) (b : Fin 4) (i : Fin 4096)
    (hb : b.val = t.val / 16) (hi : i.val = (t.val % 4) * 1024 + kk.val) :
    kBlk V c t (ix3 (0 : Fin 1) kk d) = kArr V c (ix3 b i d) := by
  obtain ⟨-, -, -, e0, e1, e2, -⟩ := idx_facts1 t
  unfold kBlk iblk1
  rw [View.read_apply]
  show V c main_v18 _ = V c main_v18 _
  congr 1
  funext a
  apply Fin.ext
  match a with
  | ⟨0, _⟩ => show win1_1.index t (0 : Fin 3) * 1 + 1 * 0 = b.val; omega
  | ⟨1, _⟩ => show win1_1.index t (1 : Fin 3) * 1024 + 1 * kk.val = i.val; omega
  | ⟨2, _⟩ => show win1_1.index t (2 : Fin 3) * 1024 + 1 * d.val = d.val; omega

/-- The same for the value block. -/
theorem vBlk_apply (c : Dev nD) (t : Fin cfg1.N) (kk d : Fin 1024) (b : Fin 4) (i : Fin 4096)
    (hb : b.val = t.val / 16) (hi : i.val = (t.val % 4) * 1024 + kk.val) :
    vBlk V c t (ix3 (0 : Fin 1) kk d) = vArr V c (ix3 b i d) := by
  obtain ⟨-, -, -, -, -, -, e0, e1, e2, -⟩ := idx_facts1 t
  unfold vBlk iblk1
  rw [View.read_apply]
  show V c main_v19 _ = V c main_v19 _
  congr 1
  funext a
  apply Fin.ext
  match a with
  | ⟨0, _⟩ => show win1_2.index t (0 : Fin 3) * 1 + 1 * 0 = b.val; omega
  | ⟨1, _⟩ => show win1_2.index t (1 : Fin 3) * 1024 + 1 * kk.val = i.val; omega
  | ⟨2, _⟩ => show win1_2.index t (2 : Fin 3) * 1024 + 1 * d.val = d.val; omega

/-! ## The scores and the values of one query row against one key tile -/

/-- The scores of query row `i` of batch entry `b` against the keys of tile `j`: the inner products. -/
def S (c : Dev nD) (b : Fin 4) (i : Fin 4096) : Fin 4 → Fin 1024 → EReal :=
  fun j kk => ∑ d' : Fin 1024, qArr V c (ix3 b i d') * kArr V c (ix3 b (Cert.Spec.tile j kk) d')

/-- Column `d` of the value rows of tile `j` of batch entry `b`. -/
def Vv (c : Dev nD) (b : Fin 4) (d : Fin 1024) : Fin 4 → Fin 1024 → EReal :=
  fun j kk => vArr V c (ix3 b (Cert.Spec.tile j kk) d)

/-- The scores of row `r` of point `t`'s query block against its key block. -/
def scBlk (c : Dev nD) (t : Fin cfg1.N) (r : Fin 1024) : Fin 1024 → EReal :=
  fun kk => ∑ d' : Fin 1024, qBlk V c t (ix3 (0 : Fin 1) r d') * kBlk V c t (ix3 (0 : Fin 1) kk d')

/-- Column `d` of point `t`'s value block. -/
def vlBlk (c : Dev nD) (t : Fin cfg1.N) (d : Fin 1024) : Fin 1024 → EReal :=
  fun kk => vBlk V c t (ix3 (0 : Fin 1) kk d)

/-- Point `t`'s block scores are the array's: query row `(t / 4 % 4) · 1024 + r` against key tile `t % 4`. -/
theorem scBlk_eq (c : Dev nD) (t : Fin cfg1.N) (r : Fin 1024) (b : Fin 4) (i : Fin 4096) (j : Fin 4)
    (hb : b.val = t.val / 16) (hi : i.val = (t.val / 4 % 4) * 1024 + r.val) (hj : j.val = t.val % 4) :
    scBlk V c t r = S V c b i j := by
  funext kk
  unfold scBlk S
  refine Finset.sum_congr rfl fun d' _ => ?_
  rw [qBlk_apply V c t r d' b i hb hi, kBlk_apply V c t kk d' b (Cert.Spec.tile j kk) hb (by unfold Cert.Spec.tile; dsimp only; rw [hj])]

/-- Point `t`'s block values are the array's: tile `t % 4`. -/
theorem vlBlk_eq (c : Dev nD) (t : Fin cfg1.N) (d : Fin 1024) (b : Fin 4) (j : Fin 4)
    (hb : b.val = t.val / 16) (hj : j.val = t.val % 4) :
    vlBlk V c t d = Vv V c b d j := by
  funext kk
  unfold vlBlk Vv
  exact vBlk_apply V c t kk d b (Cert.Spec.tile j kk) hb (by unfold Cert.Spec.tile; dsimp only; rw [hj])

/-! ## The four points of one query tile, chained -/

section Chain
variable
  (hA : ∀ (c : Dev nD) (t : Fin cfg1.N) (h0 : t.val % 4 = 0),
    (outsAt1 V c t.val t.isLt).2 = (mStep (qBlk V c t) (kBlk V c t) (k1_pay4 (F := Ideal)), lStep (qBlk V c t) (kBlk V c t) (k1_pay4 (F := Ideal)) (k1_pay5 (F := Ideal)), aStep (qBlk V c t) (kBlk V c t) (vBlk V c t) (k1_pay4 (F := Ideal)) (k1_pay6 (F := Ideal))))
  (hB : ∀ (c : Dev nD) (t : Fin cfg1.N) (h0 : ¬t.val % 4 = 0) (h1 : ¬t.val % 4 = 3),
    (outsAt1 V c t.val t.isLt).2 = (mStep (qBlk V c t) (kBlk V c t) (outsAt1 V c (t.val - 1) (Nat.lt_of_le_of_lt (Nat.sub_le _ _) t.isLt)).2.1, lStep (qBlk V c t) (kBlk V c t) (outsAt1 V c (t.val - 1) (Nat.lt_of_le_of_lt (Nat.sub_le _ _) t.isLt)).2.1 (outsAt1 V c (t.val - 1) (Nat.lt_of_le_of_lt (Nat.sub_le _ _) t.isLt)).2.2.1, aStep (qBlk V c t) (kBlk V c t) (vBlk V c t) (outsAt1 V c (t.val - 1) (Nat.lt_of_le_of_lt (Nat.sub_le _ _) t.isLt)).2.1 (outsAt1 V c (t.val - 1) (Nat.lt_of_le_of_lt (Nat.sub_le _ _) t.isLt)).2.2.2))
  (hC : ∀ (c : Dev nD) (t : Fin cfg1.N) (h1 : t.val % 4 = 3),
    outsAt1 V c t.val t.isLt = (oStep (qBlk V c t) (kBlk V c t) (vBlk V c t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, mStep (qBlk V c t) (kBlk V c t) (outsAt1 V c (t.val - 1) (Nat.lt_of_le_of_lt (Nat.sub_le _ _) t.isLt)).2.1, lStep (qBlk V c t) (kBlk V c t) (outsAt1 V c (t.val - 1) (Nat.lt_of_le_of_lt (Nat.sub_le _ _) t.isLt)).2.1 (outsAt1 V c (t.val - 1) (Nat.lt_of_le_of_lt (Nat.sub_le _ _) t.isLt)).2.2.1, aStep (qBlk V c t) (kBlk V c t) (vBlk V c t) (outsAt1 V c (t.val - 1) (Nat.lt_of_le_of_lt (Nat.sub_le _ _) t.isLt)).2.1 (outsAt1 V c (t.val - 1) (Nat.lt_of_le_of_lt (Nat.sub_le _ _) t.isLt)).2.2.2))
  (hstep : ∀ (q k v : Vec Ideal S1x1024x1024 .bf16) (m l : Vec Ideal S1024x1 .f32) (a : Vec Ideal S1024x1024 .f32) (r d : Fin 1024),
    (mStep q k m (ix2 r (0 : Fin 1)), lStep q k m l (ix2 r (0 : Fin 1)), aStep q k v m a (ix2 r d))
      = Cert.Spec.flashStep (m (ix2 r (0 : Fin 1)), l (ix2 r (0 : Fin 1)), a (ix2 r d))
          (fun kk : Fin 1024 => ∑ d' : Fin 1024, q (ix3 (0 : Fin 1) r d') * k (ix3 (0 : Fin 1) kk d')) (fun kk : Fin 1024 => v (ix3 (0 : Fin 1) kk d)))
  (ho : ∀ (q k v : Vec Ideal S1x1024x1024 .bf16) (m l : Vec Ideal S1024x1 .f32) (a : Vec Ideal S1024x1024 .f32) (r d : Fin 1024),
    oStep q k v m l a (ix3 (0 : Fin 1) r d) = Ideal.div (aStep q k v m a (ix2 r d)) (lStep q k m l (ix2 r (0 : Fin 1))))
  (hrm : ∀ r : Fin 1024, (k1_pay4 (F := Ideal)) (ix2 r (0 : Fin 1)) = Ideal.ofBits .f32 0xFF333333#32)
  (hrl : ∀ r : Fin 1024, (k1_pay5 (F := Ideal)) (ix2 r (0 : Fin 1)) = 0)
  (hra : ∀ r d : Fin 1024, (k1_pay6 (F := Ideal)) (ix2 r d) = 0)

/-- The running (maximum, denominator, numerator) of row `r`, column `d` after the body at position `n`. -/
def stAt (c : Dev nD) (n : ℕ) (hn : n < cfg1.N) (r d : Fin 1024) : EReal × EReal × EReal :=
  ((outsAt1 V c n hn).2.1 (ix2 r (0 : Fin 1)), (outsAt1 V c n hn).2.2.1 (ix2 r (0 : Fin 1)), (outsAt1 V c n hn).2.2.2 (ix2 r d))

include hA hstep hrm hrl hra in
/-- At a tile's first point the running triple is one step from the start triple. -/
theorem stAt_first (c : Dev nD) (n : ℕ) (hn : n < cfg1.N) (h0 : n % 4 = 0) (r d : Fin 1024) :
    stAt V c n hn r d
      = Cert.Spec.flashStep (Ideal.ofBits .f32 0xFF333333#32, 0, 0) (scBlk V c ⟨n, hn⟩ r) (vlBlk V c ⟨n, hn⟩ d) := by
  have e := hA c ⟨n, hn⟩ h0
  dsimp only at e
  unfold stAt
  rw [e]
  dsimp only
  refine (hstep (qBlk V c ⟨n, hn⟩) (kBlk V c ⟨n, hn⟩) (vBlk V c ⟨n, hn⟩) (k1_pay4 (F := Ideal)) (k1_pay5 (F := Ideal)) (k1_pay6 (F := Ideal)) r d).trans ?_
  rw [hrm r, hrl r, hra r d]
  rfl

include hB hC hstep in
/-- At a later point of the tile the running triple is one step from the point before's. -/
theorem stAt_next (c : Dev nD) (n : ℕ) (hn : n + 1 < cfg1.N) (h0 : ¬(n + 1) % 4 = 0) (r d : Fin 1024) :
    stAt V c (n + 1) hn r d
      = Cert.Spec.flashStep (stAt V c n (Nat.lt_of_succ_lt hn) r d) (scBlk V c ⟨n + 1, hn⟩ r) (vlBlk V c ⟨n + 1, hn⟩ d) := by
  by_cases h3 : (n + 1) % 4 = 3
  · have e := hC c ⟨n + 1, hn⟩ h3
    simp only [Nat.add_sub_cancel] at e
    unfold stAt
    rw [e]
    dsimp only
    exact hstep (qBlk V c ⟨n + 1, hn⟩) (kBlk V c ⟨n + 1, hn⟩) (vBlk V c ⟨n + 1, hn⟩) (outsAt1 V c n (Nat.lt_of_succ_lt hn)).2.1 (outsAt1 V c n (Nat.lt_of_succ_lt hn)).2.2.1 (outsAt1 V c n (Nat.lt_of_succ_lt hn)).2.2.2 r d
  · have e := hB c ⟨n + 1, hn⟩ h0 h3
    simp only [Nat.add_sub_cancel] at e
    unfold stAt
    rw [e]
    dsimp only
    exact hstep (qBlk V c ⟨n + 1, hn⟩) (kBlk V c ⟨n + 1, hn⟩) (vBlk V c ⟨n + 1, hn⟩) (outsAt1 V c n (Nat.lt_of_succ_lt hn)).2.1 (outsAt1 V c n (Nat.lt_of_succ_lt hn)).2.2.1 (outsAt1 V c n (Nat.lt_of_succ_lt hn)).2.2.2 r d

include hC ho in
/-- At a tile's last point the output block is the numerator over the denominator. -/
theorem out_last (c : Dev nD) (n : ℕ) (hn : n < cfg1.N) (h3 : n % 4 = 3) (r d : Fin 1024) :
    (outsAt1 V c n hn).1 (ix3 (0 : Fin 1) r d) = Ideal.div (stAt V c n hn r d).2.2 (stAt V c n hn r d).2.1 := by
  have e := hC c ⟨n, hn⟩ h3
  dsimp only at e
  unfold stAt
  rw [e]
  dsimp only
  exact ho (qBlk V c ⟨n, hn⟩) (kBlk V c ⟨n, hn⟩) (vBlk V c ⟨n, hn⟩) (outsAt1 V c (n - 1) (Nat.lt_of_le_of_lt (Nat.sub_le _ _) hn)).2.1 (outsAt1 V c (n - 1) (Nat.lt_of_le_of_lt (Nat.sub_le _ _) hn)).2.2.1 (outsAt1 V c (n - 1) (Nat.lt_of_le_of_lt (Nat.sub_le _ _) hn)).2.2.2 r d

include hA hB hC hstep ho hrm hrl hra in
/-- The output block stored at the last point `n + 3` of a query tile, at row `r` and column `d`: the four steps over
    the tile's four key/value blocks, then the division. -/
theorem out_run (c : Dev nD) (n : ℕ) (hn : n + 3 < cfg1.N) (h0 : n % 4 = 0) (r d : Fin 1024) (b : Fin 4) (i : Fin 4096)
    (hb : b.val = n / 16) (hi : i.val = (n / 4 % 4) * 1024 + r.val) :
    (outsAt1 V c (n + 3) hn).1 (ix3 (0 : Fin 1) r d)
      = Ideal.div (Cert.Spec.flashRun (Ideal.ofBits .f32 0xFF333333#32) (S V c b i) (Vv V c b d)).2.2
          (Cert.Spec.flashRun (Ideal.ofBits .f32 0xFF333333#32) (S V c b i) (Vv V c b d)).2.1 := by
  have hn0 : n < cfg1.N := by omega
  have hn1 : n + 1 < cfg1.N := by omega
  have hn2 : n + 2 < cfg1.N := by omega
  have e3 : stAt V c (n + 3) hn r d = Cert.Spec.flashStep (stAt V c (n + 2) hn2 r d) (scBlk V c ⟨n + 3, hn⟩ r) (vlBlk V c ⟨n + 3, hn⟩ d) :=
    stAt_next V hB hC hstep c (n + 2) hn (by omega) r d
  have e2 : stAt V c (n + 2) hn2 r d = Cert.Spec.flashStep (stAt V c (n + 1) hn1 r d) (scBlk V c ⟨n + 2, hn2⟩ r) (vlBlk V c ⟨n + 2, hn2⟩ d) :=
    stAt_next V hB hC hstep c (n + 1) hn2 (by omega) r d
  have e1 : stAt V c (n + 1) hn1 r d = Cert.Spec.flashStep (stAt V c n hn0 r d) (scBlk V c ⟨n + 1, hn1⟩ r) (vlBlk V c ⟨n + 1, hn1⟩ d) :=
    stAt_next V hB hC hstep c n hn1 (by omega) r d
  have e0 := stAt_first V hA hstep hrm hrl hra c n hn0 h0 r d
  rw [out_last V hC ho c (n + 3) hn (by omega) r d, e3, e2, e1, e0]
  rw [scBlk_eq V c ⟨n, hn0⟩ r b i 0 (by dsimp only; omega) (by dsimp only; omega) (by dsimp only; omega),
    scBlk_eq V c ⟨n + 1, hn1⟩ r b i 1 (by dsimp only; omega) (by dsimp only; omega) (by dsimp only; omega),
    scBlk_eq V c ⟨n + 2, hn2⟩ r b i 2 (by dsimp only; omega) (by dsimp only; omega) (by dsimp only; omega),
    scBlk_eq V c ⟨n + 3, hn⟩ r b i 3 (by dsimp only; omega) (by dsimp only; omega) (by dsimp only; omega),
    vlBlk_eq V c ⟨n, hn0⟩ d b 0 (by dsimp only; omega) (by dsimp only; omega),
    vlBlk_eq V c ⟨n + 1, hn1⟩ d b 1 (by dsimp only; omega) (by dsimp only; omega),
    vlBlk_eq V c ⟨n + 2, hn2⟩ d b 2 (by dsimp only; omega) (by dsimp only; omega),
    vlBlk_eq V c ⟨n + 3, hn⟩ d b 3 (by dsimp only; omega) (by dsimp only; omega)]
  rfl

/-! ## The result array -/

/-- The attention output at `(b, i, d)` as the kernel computes it: the four steps of the running triple over the
    four key/value tiles, then the numerator over the denominator. -/
def flashAt (c : Dev nD) (b : Fin 4) (i : Fin 4096) (d : Fin 1024) : EReal :=
  Ideal.div (Cert.Spec.flashRun (Ideal.ofBits .f32 0xFF333333#32) (S V c b i) (Vv V c b d)).2.2
    (Cert.Spec.flashRun (Ideal.ofBits .f32 0xFF333333#32) (S V c b i) (Vv V c b d)).2.1

/-- The same as one array. -/
def flashArr (c : Dev nD) : Vec Ideal S4x4096x1024 .f32 := fun idx => flashAt V c (idx 0) (idx 1) (idx 2)

include hA hB hC hstep ho hrm hrl hra in
/-- The output block after a tile's last point `n`, entry by entry, is the array's closed form. -/
theorem out_last_eq (c : Dev nD) (n : ℕ) (hn : n < cfg1.N) (h3 : n % 4 = 3) (r d : Fin 1024) (b : Fin 4) (i : Fin 4096)
    (hb : b.val = n / 16) (hi : i.val = (n / 4 % 4) * 1024 + r.val) :
    (outsAt1 V c n hn).1 (ix3 (0 : Fin 1) r d) = flashAt V c b i d := by
  obtain ⟨m, rfl⟩ : ∃ m, n = m + 3 := ⟨n - 3, by omega⟩
  exact out_run V hA hB hC hstep ho hrm hrl hra c m hn (by omega) r d b i (by omega) (by omega)

include hA hB hC hstep ho hrm hrl hra in
/-- What a tile's last point writes back is its block of the closed form. -/
theorem flushed1_3_eq (c : Dev nD) (t : Fin cfg1.N) (hf : (cfg1.win 3).flush t = true) :
    (dat1 V c).flushed 3 t = ((cfg1.win 3).blk t).view.read (Elt Ideal) (flashArr V c) := by
  have h3 : t.val % 4 = 3 := (flush1_3 t).mp hf
  have hN := N_1
  have htN : t.val < 64 := hN ▸ t.isLt
  obtain ⟨-, -, -, -, -, -, -, -, -, e0, e1, e2⟩ := idx_facts1 t
  show (cfg1.win 3).cut (grid1.coords t) ((dat1 V c).after 3 t) = _
  rw [after1_3]
  have key : ∀ j : S1x1024x1024.Idx, (outsAt1 V c t.val t.isLt).1 j = flashArr V c (((cfg1.win 3).blk t).view.emb j) := by
    intro j
    obtain ⟨a0, r, d, rfl⟩ : ∃ (a0 : Fin 1) (r d : Fin 1024), j = ix3 a0 r d := ⟨j 0, j 1, j 2, eq_ix3 j⟩
    obtain rfl : a0 = 0 := Subsingleton.elim _ _
    have e : ((cfg1.win 3).blk t).view.emb (ix3 (0 : Fin 1) r d)
        = ix3 (⟨t.val / 16, by omega⟩ : Fin 4) (⟨(t.val / 4 % 4) * 1024 + r.val, by omega⟩ : Fin 4096) d := by
      funext a
      apply Fin.ext
      match a with
      | ⟨0, _⟩ => show win1_3.index t (0 : Fin 3) * 1 + 1 * 0 = t.val / 16; omega
      | ⟨1, _⟩ => show win1_3.index t (1 : Fin 3) * 1024 + 1 * r.val = (t.val / 4 % 4) * 1024 + r.val; omega
      | ⟨2, _⟩ => show win1_3.index t (2 : Fin 3) * 1024 + 1 * d.val = d.val; omega
    rw [e]
    exact out_last_eq V hA hB hC hstep ho hrm hrl hra c t.val t.isLt h3 r d _ _ rfl rfl
  funext j
  exact key j

/-- An index of the result array is in point `t`'s block iff each coordinate is in the block's range on its axis. -/
theorem mem_blk1_3 (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v20).slice (win1_3.rect t)).set ↔ _
  rw [View.set_slice_whole, Rect.mem_set_unit]
  exact Iff.rfl

/-- Every index of the result array is in the block of its query tile's last point. -/
theorem cover1_3 (i : S4x4096x1024.Idx) :
    ∃ t : Fin cfg1.N, (cfg1.win 3).flush t = true ∧ i ∈ ((cfg1.win 3).blk t).view.set := by
  have hN := N_1
  have h0 : (i 0).val < 4 := (i 0).isLt
  have h1 : (i 1).val < 4096 := (i 1).isLt
  have h2 : (i 2).val < 1024 := (i 2).isLt
  have ht : 16 * (i 0).val + 4 * ((i 1).val / 1024) + 3 < cfg1.N := by rw [show cfg1.N = 64 from hN]; omega
  refine ⟨⟨16 * (i 0).val + 4 * ((i 1).val / 1024) + 3, ht⟩, (flush1_3 _).mpr (by dsimp only; omega), ?_⟩
  obtain ⟨-, -, -, -, -, -, -, -, -, e0, e1, e2⟩ := idx_facts1 ⟨16 * (i 0).val + 4 * ((i 1).val / 1024) + 3, ht⟩
  dsimp only at e0 e1 e2
  rw [mem_blk1_3]
  intro a
  match a with
  | ⟨0, _⟩ => show win1_3.index _ (0 : Fin 3) * 1 ≤ (i 0).val ∧ (i 0).val < win1_3.index _ (0 : Fin 3) * 1 + 1; omega
  | ⟨1, _⟩ => show win1_3.index _ (1 : Fin 3) * 1024 ≤ (i 1).val ∧ (i 1).val < win1_3.index _ (1 : Fin 3) * 1024 + 1024; omega
  | ⟨2, _⟩ => show win1_3.index _ (2 : Fin 3) * 1024 ≤ (i 2).val ∧ (i 2).val < win1_3.index _ (2 : Fin 3) * 1024 + 1024; omega

include hA hB hC hstep ho hrm hrl hra in
/-- THE RESULT ARRAY after the region: at `(b, i, d)` the numerator over the denominator of the four steps of the running
    triple over the scores of query row `i` against the four key tiles and column `d` of the four value tiles. -/
theorem arrAt1_3_of (c : Dev nD) (b : Fin 4) (i : Fin 4096) (d : Fin 1024) :
    (dat1 (F := Ideal) V c).arrAt 3 cfg1.N (ix3 b i d)
      = Ideal.div (Cert.Spec.flashRun (Ideal.ofBits .f32 0xFF333333#32) (S V c b i) (Vv V c b d)).2.2
          (Cert.Spec.flashRun (Ideal.ofBits .f32 0xFF333333#32) (S V c b i) (Vv V c b d)).2.1 := by
  rw [(dat1 V c).arrAt_eq_of_cover 3 (flashArr V c) (flushed1_3_eq V hA hB hC hstep ho hrm hrl hra c) cover1_3]
  rfl

end Chain

/-- THE RESULT ARRAY after the region, with the per-point contents of the buffers and the arithmetic of one step supplied:
    at `(b, i, d)` the numerator over the denominator of the four steps of the running triple over the scores of query
    row `i` against the four key tiles and column `d` of the four value tiles. -/
theorem arrAt1_3 (c : Dev nD) (b : Fin 4) (i : Fin 4096) (d : Fin 1024) :
    (dat1 (F := Ideal) V c).arrAt 3 cfg1.N (ix3 b i d)
      = Ideal.div (Cert.Spec.flashRun (Ideal.ofBits .f32 0xFF333333#32) (S V c b i) (Vv V c b d)).2.2
          (Cert.Spec.flashRun (Ideal.ofBits .f32 0xFF333333#32) (S V c b i) (Vv V c b d)).2.1 :=
  arrAt1_3_of V (outsAt1_A_val V) (outsAt1_B_val V) (outsAt1_C_val V) step_at oStep_at reset_m reset_l reset_a c b i d

end Cert.KernelIdeal.Val

end
-- ==== Proof.Val.Finite.lean ====
/-
  Finiteness of the inputs, read back from the precondition.

  The precondition compares the absolute value of every entry of each of the seven inputs with plus infinity and
  takes the conjunction of all these comparisons.  An extended real whose absolute value is strictly below the top
  element is neither the top nor the bottom element: it is a real number.
-/
import proofs.«414292_j1580547973071_3_alg».proof.Defs
import proofs.«414292_j1580547973071_3_alg».proof.Proof.Gen.Pre_finite_inputs
import proofs.«414292_j1580547973071_3_alg».proof.Proof.Spec.Defs
import Idealize.ShloMosaic.Lib.ReduceAll
import Idealize.ShloMosaic.Lib.ValueIdx
import Idealize.ShloMosaic.PureOps.Ideal.Laws

noncomputable section

namespace Cert.KernelIdeal.Val

open Idealize.ShloMosaic Idealize.SL.Sem Idealize.ShloMosaic.ValueIdx Cert.Pre_finite_inputs

/-- The word `0x7F800000` reads as the top element. -/
theorem inf_word : Ideal.ofBits .f32 0x7F800000#32 = (⊤ : EReal) := by
  simp [Ideal.ofBits, Ideal.ieee]

/-- An extended real whose absolute value compares strictly below the top element is a real number. -/
theorem isReal_of_abs_lt (x : EReal)
    (h : Ideal.cmp .olt (max x (-x)) (Ideal.ofBits .f32 0x7F800000#32) = 1#1) : Cert.Spec.IsReal x := by
  rw [inf_word] at h
  induction x using EReal.rec with
  | bot => simp [Ideal.cmp] at h
  | top => simp [Ideal.cmp] at h
  | coe r => exact ⟨EReal.coe_ne_top r, EReal.coe_ne_bot r⟩

local instance subsingleton_scalar_idx : Subsingleton Cert.Pre_finite_inputs.S_.Idx := ⟨fun a b => funext fun d => d.elim0⟩

/-- One conjunct of the precondition: the conjunction over all entries of "the absolute value is below infinity"
    being true makes every entry a real number. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu j = 1#1) (i : s.Idx) : Cert.Spec.IsReal (x i) :=
  isReal_of_abs_lt (x i) (Host.reduce_andi_all _ _ hr hu j e i)

/-- The precondition, all ones, makes every entry of each of the seven inputs a real number. -/
theorem finite_of_pre [hP : Cert.Pre_finite_inputs.Facts]
    (x0 : FVec Ideal Cert.Pre_finite_inputs.S4x4096x1024 .f32) (x1 : FVec Ideal Cert.Pre_finite_inputs.S1024x1024 .f32)
    (x2 : FVec Ideal Cert.Pre_finite_inputs.S1024 .f32) (x3 : FVec Ideal Cert.Pre_finite_inputs.S1024x1024 .f32)
    (x4 : FVec Ideal Cert.Pre_finite_inputs.S1024 .f32) (x5 : FVec Ideal Cert.Pre_finite_inputs.S1024x1024 .f32)
    (x6 : FVec Ideal Cert.Pre_finite_inputs.S1024 .f32)
    (h : Cert.Pre_finite_inputs.fn (F := Ideal) x0 x1 x2 x3 x4 x5 x6 = fun _ => 1#1) :
    (∀ i, Cert.Spec.IsReal (x0 i)) ∧ (∀ i, Cert.Spec.IsReal (x1 i)) ∧ (∀ i, Cert.Spec.IsReal (x2 i))
      ∧ (∀ i, Cert.Spec.IsReal (x3 i)) ∧ (∀ i, Cert.Spec.IsReal (x4 i)) ∧ (∀ i, Cert.Spec.IsReal (x5 i))
      ∧ (∀ i, Cert.Spec.IsReal (x6 i)) := by
  have h0 := congrFun h ix0
  dsimp only [Cert.Pre_finite_inputs.fn, Cert.Pre_finite_inputs.fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all x0 _ _ _ ix0 e0, isReal_of_all x1 _ _ _ ix0 e1, isReal_of_all x2 _ _ _ ix0 e2,
    isReal_of_all x3 _ _ _ ix0 e3, isReal_of_all x4 _ _ _ ix0 e4, isReal_of_all x5 _ _ _ ix0 e5,
    isReal_of_all x6 _ _ _ ix0 e6⟩

/-- The same for the claim's hypothesis: on every device, every entry of each argument array is a real number. -/
theorem finite_of_Pre [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Spec.IsReal (m ((c.tc : Thread Cert.KernelIdeal.nD Cert.KernelIdeal.τ).loc Cert.KernelIdeal.main_arg0) i))
      ∧ (∀ i, Cert.Spec.IsReal (m ((c.tc : Thread Cert.KernelIdeal.nD Cert.KernelIdeal.τ).loc Cert.KernelIdeal.main_arg1) i))
      ∧ (∀ i, Cert.Spec.IsReal (m ((c.tc : Thread Cert.KernelIdeal.nD Cert.KernelIdeal.τ).loc Cert.KernelIdeal.main_arg2) i))
      ∧ (∀ i, Cert.Spec.IsReal (m ((c.tc : Thread Cert.KernelIdeal.nD Cert.KernelIdeal.τ).loc Cert.KernelIdeal.main_arg3) i))
      ∧ (∀ i, Cert.Spec.IsReal (m ((c.tc : Thread Cert.KernelIdeal.nD Cert.KernelIdeal.τ).loc Cert.KernelIdeal.main_arg4) i))
      ∧ (∀ i, Cert.Spec.IsReal (m ((c.tc : Thread Cert.KernelIdeal.nD Cert.KernelIdeal.τ).loc Cert.KernelIdeal.main_arg5) i))
      ∧ (∀ i, Cert.Spec.IsReal (m ((c.tc : Thread Cert.KernelIdeal.nD Cert.KernelIdeal.τ).loc Cert.KernelIdeal.main_arg6) i)) :=
  finite_of_pre _ _ _ _ _ _ _ (h c)

end Cert.KernelIdeal.Val

end
-- ==== Proof.Spec.Softmax.lean ====
/-
  The mathematics of the certificate, free of any program: attention computed tile by tile with a
  running maximum, a running denominator and a running numerator equals the softmax-weighted
  average computed in one pass, on extended reals that are all real numbers.

  The argument: when the running maximum is the real number M, the running denominator is
  exp (-M) · Σ exp s and the running numerator is exp (-M) · Σ exp s · v, the sums taken over
  the keys seen so far. One more tile replaces M by some real M' (which real it is does not
  matter) and adds that tile's terms to both sums. At the end the factor exp (-M) cancels in the
  quotient. The one-pass softmax has the same shape with its own shift, which cancels as well.
-/
import proofs.«414292_j1580547973071_3_alg».proof.Proof.Spec.Defs
import Idealize.ShloMosaic.PureOps.Ideal
import Mathlib.Data.EReal.Operations
import Mathlib.Data.EReal.Inv
import Mathlib.Data.Finset.Fold
import Mathlib.Algebra.BigOperators.Fin
import Mathlib.Data.Fintype.BigOperators
import Mathlib.Analysis.Complex.Exponential

noncomputable section

namespace Cert.Spec

open Idealize.ShloMosaic
open scoped BigOperators

theorem IsReal.coe (r : ℝ) : IsReal (r : EReal) := ⟨EReal.coe_ne_top r, EReal.coe_ne_bot r⟩

theorem IsReal.exists_real {x : EReal} (h : IsReal x) : ∃ r : ℝ, x = (r : EReal) :=
  ⟨x.toReal, (EReal.coe_toReal h.1 h.2).symm⟩

theorem IsReal.add {x y : EReal} (hx : IsReal x) (hy : IsReal y) : IsReal (x + y) := by
  obtain ⟨a, rfl⟩ := hx.exists_real
  obtain ⟨b, rfl⟩ := hy.exists_real
  rw [← EReal.coe_add]; exact IsReal.coe _

theorem IsReal.mul {x y : EReal} (hx : IsReal x) (hy : IsReal y) : IsReal (x * y) := by
  obtain ⟨a, rfl⟩ := hx.exists_real
  obtain ⟨b, rfl⟩ := hy.exists_real
  rw [← EReal.coe_mul]; exact IsReal.coe _

theorem IsReal.sum {ι : Type*} (s : Finset ι) (f : ι → EReal) (h : ∀ i ∈ s, IsReal (f i)) :
    IsReal (∑ i ∈ s, f i) := by
  classical
  induction s using Finset.induction_on with
  | empty => simpa using IsReal.coe 0
  | insert a s ha ih =>
    rw [Finset.sum_insert ha]
    exact (h a (Finset.mem_insert_self a s)).add (ih fun i hi => h i (Finset.mem_insert_of_mem hi))

/-- the coercion of a finite sum of reals is the sum of the coercions -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- dividing a real by a nonzero real -/
theorem div_coe_coe (a b : ℝ) (hb : b ≠ 0) : Ideal.div (a : EReal) (b : EReal) = ((a / b : ℝ) : EReal) := by
  rw [Ideal.div_coe hb, ← EReal.coe_mul, mul_one_div]

/-- the maximum of finitely many reals, started at the bottom, is the bottom or a real -/
theorem fold_max_bot_or_real {κ : Type*} (t : Finset κ) (f : κ → ℝ) :
    t.fold max (⊥ : EReal) (fun k => (f k : EReal)) = ⊥
      ∨ ∃ r : ℝ, t.fold max (⊥ : EReal) (fun k => (f k : EReal)) = (r : EReal) := by
  classical
  induction t using Finset.induction_on with
  | empty => left; simp
  | insert a s ha ih =>
    right
    rw [Finset.fold_insert ha]
    rcases ih with h | ⟨r, h⟩
    · rw [h]; exact ⟨f a, max_eq_left bot_le⟩
    · rw [h]
      rcases le_total (f a) r with hle | hle
      · exact ⟨r, max_eq_right (EReal.coe_le_coe_iff.2 hle)⟩
      · exact ⟨f a, max_eq_left (EReal.coe_le_coe_iff.2 hle)⟩

/-- a real against the maximum of finitely many reals is a real -/
theorem max_fold_real {κ : Type*} (t : Finset κ) (M : ℝ) (f : κ → ℝ) :
    ∃ r : ℝ, max (M : EReal) (t.fold max (⊥ : EReal) (fun k => (f k : EReal))) = (r : EReal) := by
  rcases fold_max_bot_or_real t f with h | ⟨r, h⟩
  · rw [h]; exact ⟨M, max_eq_left bot_le⟩
  · rw [h]
    rcases le_total M r with hle | hle
    · exact ⟨r, max_eq_right (EReal.coe_le_coe_iff.2 hle)⟩
    · exact ⟨M, max_eq_left (EReal.coe_le_coe_iff.2 hle)⟩

/-- the maximum of a nonempty finite family of reals is a real -/
theorem bot_max_fold_real {ν : Type*} [Fintype ν] [Nonempty ν] (f : ν → ℝ) :
    ∃ r : ℝ, max (⊥ : EReal) (Finset.univ.fold max (⊥ : EReal) (fun n => (f n : EReal))) = (r : EReal) := by
  rw [max_eq_right bot_le]
  rcases fold_max_bot_or_real Finset.univ f with h | h
  · exfalso
    obtain ⟨n⟩ := ‹Nonempty ν›
    have hle : ((f n : ℝ) : EReal) ≤ Finset.univ.fold max (⊥ : EReal) (fun n => (f n : EReal)) :=
      (Finset.le_fold_max _).2 (Or.inr ⟨n, Finset.mem_univ n, le_rfl⟩)
    rw [h] at hle
    exact EReal.coe_ne_bot _ (le_bot_iff.1 hle)
  · exact h

/-- One tile, on reals: if the state is (M, exp (-M) · L, exp (-M) · A) then after the tile it is
    (M', exp (-M') · (L + Σ exp s), exp (-M') · (A + Σ exp s · v)) for some real M'. -/
theorem flashStep_coe {κ : Type} [Fintype κ] (M L A : ℝ) (s v : κ → ℝ) :
    ∃ M' : ℝ, flashStep ((M : EReal), ((Real.exp (-M) * L : ℝ) : EReal), ((Real.exp (-M) * A : ℝ) : EReal))
        (fun k => (s k : EReal)) (fun k => (v k : EReal))
      = ((M' : EReal), ((Real.exp (-M') * (L + ∑ k, Real.exp (s k)) : ℝ) : EReal),
          ((Real.exp (-M') * (A + ∑ k, Real.exp (s k) * v k) : ℝ) : EReal)) := by
  obtain ⟨M', hM'⟩ := max_fold_real Finset.univ M s
  refine ⟨M', ?_⟩
  have hα : Real.exp (M - M') * Real.exp (-M) = Real.exp (-M') := by
    rw [← Real.exp_add]; congr 1; ring
  have hk : ∀ x : ℝ, Real.exp (x - M') = Real.exp (-M') * Real.exp x := fun x => by
    rw [← Real.exp_add]; congr 1; ring
  have h1 : Real.exp (M - M') * (Real.exp (-M) * L) + ∑ k, Real.exp (s k - M')
      = Real.exp (-M') * (L + ∑ k, Real.exp (s k)) := by
    rw [← mul_assoc, hα, mul_add, Finset.mul_sum]
    congr 1
    exact Finset.sum_congr rfl fun k _ => hk (s k)
  have h2 : Real.exp (M - M') * (Real.exp (-M) * A) + ∑ k, Real.exp (s k - M') * v k
      = Real.exp (-M') * (A + ∑ k, Real.exp (s k) * v k) := by
    rw [← mul_assoc, hα, mul_add, Finset.mul_sum]
    congr 1
    exact Finset.sum_congr rfl fun k _ => by rw [hk (s k), mul_assoc]
  unfold flashStep
  simp only [hM', ← EReal.coe_sub, Ideal.exp_coe, ← EReal.coe_mul, ← coe_sum, ← EReal.coe_add, h1, h2]

/-- Four tiles, on reals. -/
theorem flashRun_coe {κ : Type} [Fintype κ] (N : ℝ) (s v : Fin 4 → κ → ℝ) :
    ∃ M : ℝ, flashRun (N : EReal) (fun j k => (s j k : EReal)) (fun j k => (v j k : EReal))
      = ((M : EReal), ((Real.exp (-M) * ∑ j, ∑ k, Real.exp (s j k) : ℝ) : EReal),
         ((Real.exp (-M) * ∑ j, ∑ k, Real.exp (s j k) * v j k : ℝ) : EReal)) := by
  have h0 : ((N : EReal), (0 : EReal), (0 : EReal))
      = ((N : EReal), ((Real.exp (-N) * 0 : ℝ) : EReal), ((Real.exp (-N) * 0 : ℝ) : EReal)) := by simp
  obtain ⟨M1, h1⟩ := flashStep_coe N 0 0 (s 0) (v 0)
  obtain ⟨M2, h2⟩ := flashStep_coe M1 (0 + ∑ k, Real.exp (s 0 k)) (0 + ∑ k, Real.exp (s 0 k) * v 0 k) (s 1) (v 1)
  obtain ⟨M3, h3⟩ := flashStep_coe M2 (0 + ∑ k, Real.exp (s 0 k) + ∑ k, Real.exp (s 1 k))
    (0 + ∑ k, Real.exp (s 0 k) * v 0 k + ∑ k, Real.exp (s 1 k) * v 1 k) (s 2) (v 2)
  obtain ⟨M4, h4⟩ := flashStep_coe M3 (0 + ∑ k, Real.exp (s 0 k) + ∑ k, Real.exp (s 1 k) + ∑ k, Real.exp (s 2 k))
    (0 + ∑ k, Real.exp (s 0 k) * v 0 k + ∑ k, Real.exp (s 1 k) * v 1 k + ∑ k, Real.exp (s 2 k) * v 2 k) (s 3) (v 3)
  refine ⟨M4, ?_⟩
  unfold flashRun
  rw [h0]
  rw [h1, h2, h3, h4]
  simp only [Fin.sum_univ_four, zero_add]

/-- The one-pass softmax average, on reals. -/
theorem softmaxAv_coe {ν : Type} [Fintype ν] [Nonempty ν] (s v : ν → ℝ) :
    softmaxAv (fun n => (s n : EReal)) (fun n => (v n : EReal))
      = (((∑ n, Real.exp (s n) * v n) / ∑ n, Real.exp (s n) : ℝ) : EReal) := by
  obtain ⟨M, hM⟩ := bot_max_fold_real s
  have hpos : 0 < ∑ n, Real.exp (s n - M) :=
    Finset.sum_pos (fun _ _ => Real.exp_pos _) Finset.univ_nonempty
  have hpos' : 0 < ∑ n, Real.exp (s n) :=
    Finset.sum_pos (fun _ _ => Real.exp_pos _) Finset.univ_nonempty
  have hk : ∀ x : ℝ, Real.exp (x - M) = Real.exp x * Real.exp (-M) := fun x => by
    rw [← Real.exp_add]; congr 1
  have he : Real.exp (-M) ≠ 0 := (Real.exp_pos _).ne'
  unfold softmaxAv
  simp only [hM, ← EReal.coe_sub, Ideal.exp_coe, ← coe_sum, div_coe_coe _ _ hpos.ne', ← EReal.coe_mul]
  congr 1
  simp only [hk, ← Finset.sum_mul]
  rw [Finset.sum_div]
  refine Finset.sum_congr rfl fun n _ => ?_
  have hS : (∑ n, Real.exp (s n)) ≠ 0 := hpos'.ne'
  field_simp

/-- key indices are pairs (tile, index in the tile) -/
def tileEquiv : Fin 4 × Fin 1024 ≃ Fin 4096 where
  toFun p := tile p.1 p.2
  invFun n := (⟨n.val / 1024, by omega⟩, ⟨n.val % 1024, by omega⟩)
  left_inv := by
    rintro ⟨j, k⟩
    ext <;> simp [tile] <;> omega
  right_inv := by
    intro n
    ext
    simp [tile]
    omega

/-- a sum over the keys, tile by tile -/
theorem sum_tile {β : Type*} [AddCommMonoid β] (f : Fin 4096 → β) :
    ∑ j : Fin 4, ∑ k : Fin 1024, f (tile j k) = ∑ n, f n := by
  rw [← Fintype.sum_equiv tileEquiv (fun p => f (tile p.1 p.2)) f (fun _ => rfl), Fintype.sum_prod_type]

/-- MAIN THEOREM -/
theorem flash_eq_softmax (neg : EReal) (hneg : IsReal neg) (S V : Fin 4096 → EReal)
    (hS : ∀ n, IsReal (S n)) (hV : ∀ n, IsReal (V n)) :
    Ideal.div (flashRun neg (fun j k => S (tile j k)) (fun j k => V (tile j k))).2.2
        (flashRun neg (fun j k => S (tile j k)) (fun j k => V (tile j k))).2.1
      = softmaxAv S V := by
  obtain ⟨N, rfl⟩ := hneg.exists_real
  choose s hs using fun n => (hS n).exists_real
  choose v hv using fun n => (hV n).exists_real
  obtain rfl : S = fun n => (s n : EReal) := funext hs
  obtain rfl : V = fun n => (v n : EReal) := funext hv
  obtain ⟨M, hM⟩ := flashRun_coe N (fun j k => s (tile j k)) (fun j k => v (tile j k))
  have hpos : 0 < ∑ n, Real.exp (s n) :=
    Finset.sum_pos (fun _ _ => Real.exp_pos _) Finset.univ_nonempty
  have he : Real.exp (-M) ≠ 0 := (Real.exp_pos _).ne'
  rw [hM, softmaxAv_coe]
  simp only
  rw [sum_tile (fun n => Real.exp (s n)), sum_tile (fun n => Real.exp (s n) * v n),
    div_coe_coe _ _ (mul_ne_zero he hpos.ne'), mul_div_mul_left _ _ he]

/-- the attention scale 1/32 folded into the query projection equals dividing the scores by 32 -/
theorem scaled_scores {δ ε : Type} [Fintype δ] [Fintype ε] (x : ε → EReal) (w : δ → ε → EReal)
    (b k : δ → EReal) (c : EReal) (hc : c = ((1/32 : ℝ) : EReal))
    (hx : ∀ e, IsReal (x e)) (hw : ∀ d e, IsReal (w d e)) (hb : ∀ d, IsReal (b d)) (hk : ∀ d, IsReal (k d)) :
    ∑ d, ((∑ e, x e * (w d e * c)) + b d * c) * k d
      = Ideal.div (∑ d, ((∑ e, x e * w d e) + b d) * k d) ((32 : ℝ) : EReal) := by
  subst hc
  choose x' hx' using fun e => (hx e).exists_real
  choose w' hw' using fun d e => (hw d e).exists_real
  choose b' hb' using fun d => (hb d).exists_real
  choose k' hk' using fun d => (hk d).exists_real
  obtain rfl : x = fun e => (x' e : EReal) := funext hx'
  obtain rfl : w = fun d e => (w' d e : EReal) := funext fun d => funext (hw' d)
  obtain rfl : b = fun d => (b' d : EReal) := funext hb'
  obtain rfl : k = fun d => (k' d : EReal) := funext hk'
  simp only [← EReal.coe_mul, ← coe_sum, ← EReal.coe_add]
  rw [div_coe_coe _ _ (by norm_num)]
  congr 1
  rw [Finset.sum_div]
  refine Finset.sum_congr rfl fun d _ => ?_
  have : ∑ e, x' e * (w' d e * (1 / 32)) = (∑ e, x' e * w' d e) * (1 / 32) := by
    rw [Finset.sum_mul]; exact Finset.sum_congr rfl fun e _ => by ring
  rw [this]; ring

/-- the literals -/
theorem ofBits_inv32 : Ideal.ofBits .f32 0x3D000000#32 = ((1/32 : ℝ) : EReal) := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_neginf : Ideal.ofBits .f32 0xFF800000#32 = ⊥ := by
  simp [Ideal.ofBits, Ideal.ieee]

theorem ofBits_negbig_real : IsReal (Ideal.ofBits .f32 0xFF333333#32) := by
  simp [Ideal.ofBits, Ideal.ieee, -EReal.coe_mul, IsReal]

end Cert.Spec

end
-- ==== Proof.Spec.Bridge.lean ====
/-
  The kernel's closed form equals the specification.

  The kernel folds the attention scale 1/32 into the query projection: it multiplies the query weights and the
  query bias by 1/32 before projecting, and takes plain inner products with the keys.  On real numbers this is the
  inner product of the unscaled projections divided by 32, which is the specification's score.  With the scores
  identified, the tile-by-tile running computation is the one-pass softmax-weighted average.
-/
import proofs.«414292_j1580547973071_3_alg».proof.Proof.Spec.Softmax

noncomputable section

namespace Cert.Spec

open Idealize.ShloMosaic Idealize.ShloMosaic.ValueIdx
open scoped BigOperators

/-- Entry `d'` of the scaled query projection of row `(b, i)`: weights and bias each multiplied by the word
    that reads 1/32. -/
def qs (x : (⟨3, ![4, 4096, 1024]⟩ : Shape).Idx → EReal) (Wq : (⟨2, ![1024, 1024]⟩ : Shape).Idx → EReal)
    (bq : (⟨1, ![1024]⟩ : Shape).Idx → EReal) (b : Fin 4) (i : Fin 4096) (d' : Fin 1024) : EReal :=
  (∑ e : Fin 1024, x (ix3 b i e) * (Wq (ix2 d' e) * Ideal.ofBits .f32 0x3D000000#32))
    + bq (ix1 d') * Ideal.ofBits .f32 0x3D000000#32

/-- A projection entry of real data is real: a finite sum of products of reals plus a real. -/
theorem isReal_proj (x : (⟨3, ![4, 4096, 1024]⟩ : Shape).Idx → EReal) (W : (⟨2, ![1024, 1024]⟩ : Shape).Idx → EReal)
    (bias : (⟨1, ![1024]⟩ : Shape).Idx → EReal) (hx : ∀ i, IsReal (x i)) (hW : ∀ i, IsReal (W i))
    (hbias : ∀ i, IsReal (bias i)) (b : Fin 4) (i : Fin 4096) (d : Fin 1024) : IsReal (proj x W bias b i d) :=
  (IsReal.sum _ _ fun e _ => (hx (ix3 b i e)).mul (hW (ix2 d e))).add (hbias (ix1 d))

/-- A score of real data is real: a real inner product divided by 32. -/
theorem isReal_score (x : (⟨3, ![4, 4096, 1024]⟩ : Shape).Idx → EReal) (Wq : (⟨2, ![1024, 1024]⟩ : Shape).Idx → EReal)
    (bq : (⟨1, ![1024]⟩ : Shape).Idx → EReal) (Wk : (⟨2, ![1024, 1024]⟩ : Shape).Idx → EReal)
    (bk : (⟨1, ![1024]⟩ : Shape).Idx → EReal) (hx : ∀ i, IsReal (x i)) (hWq : ∀ i, IsReal (Wq i))
    (hbq : ∀ i, IsReal (bq i)) (hWk : ∀ i, IsReal (Wk i)) (hbk : ∀ i, IsReal (bk i))
    (b : Fin 4) (i n : Fin 4096) : IsReal (score x Wq bq Wk bk b i n) := by
  have hsum : IsReal (∑ d : Fin 1024, proj x Wq bq b i d * proj x Wk bk b n d) :=
    IsReal.sum _ _ fun d _ => (isReal_proj x Wq bq hx hWq hbq b i d).mul (isReal_proj x Wk bk hx hWk hbk b n d)
  obtain ⟨r, hr⟩ := hsum.exists_real
  unfold score
  rw [hr, div_coe_coe r 32 (by norm_num)]
  exact IsReal.coe _

/-- The inner product of the scaled query projection with a key projection is the score. -/
theorem qs_scores (x : (⟨3, ![4, 4096, 1024]⟩ : Shape).Idx → EReal) (Wq : (⟨2, ![1024, 1024]⟩ : Shape).Idx → EReal)
    (bq : (⟨1, ![1024]⟩ : Shape).Idx → EReal) (Wk : (⟨2, ![1024, 1024]⟩ : Shape).Idx → EReal)
    (bk : (⟨1, ![1024]⟩ : Shape).Idx → EReal) (hx : ∀ i, IsReal (x i)) (hWq : ∀ i, IsReal (Wq i))
    (hbq : ∀ i, IsReal (bq i)) (hWk : ∀ i, IsReal (Wk i)) (hbk : ∀ i, IsReal (bk i))
    (b : Fin 4) (i n : Fin 4096) :
    ∑ d' : Fin 1024, qs x Wq bq b i d' * proj x Wk bk b n d' = score x Wq bq Wk bk b i n :=
  scaled_scores (fun e : Fin 1024 => x (ix3 b i e)) (fun (d' e : Fin 1024) => Wq (ix2 d' e))
    (fun d' : Fin 1024 => bq (ix1 d')) (fun d' : Fin 1024 => proj x Wk bk b n d')
    (Ideal.ofBits .f32 0x3D000000#32) ofBits_inv32 (fun e => hx _) (fun d' e => hWq _) (fun d' => hbq _)
    (fun d' => isReal_proj x Wk bk hx hWk hbk b n d')

/-- The running numerator over the running denominator after the four tiles, started at the large negative real
    the word `0xFF333333` reads as, is the attention output. -/
theorem kernel_eq_attn (x : (⟨3, ![4, 4096, 1024]⟩ : Shape).Idx → EReal) (Wq : (⟨2, ![1024, 1024]⟩ : Shape).Idx → EReal)
    (bq : (⟨1, ![1024]⟩ : Shape).Idx → EReal) (Wk : (⟨2, ![1024, 1024]⟩ : Shape).Idx → EReal)
    (bk : (⟨1, ![1024]⟩ : Shape).Idx → EReal) (Wv : (⟨2, ![1024, 1024]⟩ : Shape).Idx → EReal)
    (bv : (⟨1, ![1024]⟩ : Shape).Idx → EReal) (hx : ∀ i, IsReal (x i)) (hWq : ∀ i, IsReal (Wq i))
    (hbq : ∀ i, IsReal (bq i)) (hWk : ∀ i, IsReal (Wk i)) (hbk : ∀ i, IsReal (bk i))
    (hWv : ∀ i, IsReal (Wv i)) (hbv : ∀ i, IsReal (bv i)) (b : Fin 4) (i : Fin 4096) (d : Fin 1024) :
    Ideal.div
        (flashRun (Ideal.ofBits .f32 0xFF333333#32)
          (fun j kk => ∑ d' : Fin 1024, qs x Wq bq b i d' * proj x Wk bk b (tile j kk) d')
          (fun j kk => proj x Wv bv b (tile j kk) d)).2.2
        (flashRun (Ideal.ofBits .f32 0xFF333333#32)
          (fun j kk => ∑ d' : Fin 1024, qs x Wq bq b i d' * proj x Wk bk b (tile j kk) d')
          (fun j kk => proj x Wv bv b (tile j kk) d)).2.1
      = attn x Wq bq Wk bk Wv bv b i d := by
  have hs : (fun (j : Fin 4) (kk : Fin 1024) => ∑ d' : Fin 1024, qs x Wq bq b i d' * proj x Wk bk b (tile j kk) d')
      = fun j kk => (fun n : Fin 4096 => score x Wq bq Wk bk b i n) (tile j kk) :=
    funext fun j => funext fun kk => qs_scores x Wq bq Wk bk hx hWq hbq hWk hbk b i (tile j kk)
  rw [hs]
  exact flash_eq_softmax _ ofBits_negbig_real (fun n : Fin 4096 => score x Wq bq Wk bk b i n)
    (fun n : Fin 4096 => proj x Wv bv b n d) (fun n => isReal_score x Wq bq Wk bk hx hWq hbq hWk hbk b i n)
    (fun n => isReal_proj x Wv bv hx hWv hbv b n d)

end Cert.Spec

end
-- ==== Proof.Val.Bridge.lean ====
/-
  The kernel's result, entry by entry, is the attention of the specification.

  The chain: the result array is what the attention region leaves; that is the running numerator over the running
  denominator after the four key tiles, computed from the three projected arrays; those are reshapes of what the
  projection region leaves; each entry of those is a row of the input times a column of the stacked weights plus a
  stacked bias entry; and the stacked weights and biases are the argument arrays, the query part scaled by 1/32.
  With every argument entry a real number the tile-by-tile quotient is the one-pass softmax-weighted average.
-/
import proofs.«414292_j1580547973071_3_alg».proof.Proof.KI.Run
import proofs.«414292_j1580547973071_3_alg».proof.Proof.Val.Host
import proofs.«414292_j1580547973071_3_alg».proof.Proof.Val.Proj
import proofs.«414292_j1580547973071_3_alg».proof.Proof.Val.Flash
import proofs.«414292_j1580547973071_3_alg».proof.Proof.Val.FlashStep
import proofs.«414292_j1580547973071_3_alg».proof.Proof.KI.R1Pieces
import proofs.«414292_j1580547973071_3_alg».proof.Proof.Val.Finite
import proofs.«414292_j1580547973071_3_alg».proof.Proof.Spec.Bridge

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-! ## Rows of the flattened input -/

/-- Row `(b, i)` of the input is row `4096 b + i` of its flattening. -/
def rowIdx (b : Fin 4) (i : Fin 4096) : Fin 16384 := ⟨b.val * 4096 + i.val, by omega⟩

/-- The flattened row index splits back into `(b, i)`. -/
theorem ix3_row (b : Fin 4) (i : Fin 4096) (e : Fin 1024) (p : Fin 4) (q : Fin 4096)
    (hp : p.val = (rowIdx b i).val / 4096) (hq : q.val = (rowIdx b i).val % 4096) : ix3 p q e = ix3 b i e := by
  have h1 : p = b := Fin.ext (by rw [hp]; show (b.val * 4096 + i.val) / 4096 = b.val; omega)
  have h2 : q = i := Fin.ext (by rw [hq]; show (b.val * 4096 + i.val) % 4096 = i.val; omega)
  rw [h1, h2]

section Chain

variable (m : (ℓ : Loc nD τ sig) → Buf (Elt Ideal) ℓ) (ρ : Dev nD → PrngReg) (c : Dev nD)

/-! ## The seven argument arrays, as arrays of extended reals -/

abbrev inX : S4x4096x1024.Idx → EReal := (m ((c.tc : Thread nD τ).loc main_arg0))
abbrev inWq : S1024x1024.Idx → EReal := (m ((c.tc : Thread nD τ).loc main_arg1))
abbrev inBq : S1024.Idx → EReal := (m ((c.tc : Thread nD τ).loc main_arg2))
abbrev inWk : S1024x1024.Idx → EReal := (m ((c.tc : Thread nD τ).loc main_arg3))
abbrev inBk : S1024.Idx → EReal := (m ((c.tc : Thread nD τ).loc main_arg4))
abbrev inWv : S1024x1024.Idx → EReal := (m ((c.tc : Thread nD τ).loc main_arg5))
abbrev inBv : S1024.Idx → EReal := (m ((c.tc : Thread nD τ).loc main_arg6))

/-! ## The projection region's inputs, read back to the arguments -/

theorem v0_eq (b : Fin 4) (i : Fin 4096) (e : Fin 1024) :
    xarr (V1 m ρ) c (ix2 (rowIdx b i) e) = inX m c (ix3 b i e) :=
  (after0_v0 (W0 m ρ c) (rowIdx b i) e).trans (congrArg (inX m c) (ix3_row b i e _ _ rfl rfl))

theorem v11_q_eq (e d : Fin 1024) :
    warr (V1 m ρ) c (ix2 e (⟨d.val, by omega⟩ : Fin 3072)) = inWq m c (ix2 d e) * Ideal.ofBits .f32 0x3D000000#32 :=
  after0_v11_q (W0 m ρ c) e d

theorem v11_k_eq (e d : Fin 1024) :
    warr (V1 m ρ) c (ix2 e (⟨1024 + d.val, by omega⟩ : Fin 3072)) = inWk m c (ix2 d e) :=
  after0_v11_k (W0 m ρ c) e d

theorem v11_v_eq (e d : Fin 1024) :
    warr (V1 m ρ) c (ix2 e (⟨2048 + d.val, by omega⟩ : Fin 3072)) = inWv m c (ix2 d e) :=
  after0_v11_v (W0 m ρ c) e d

theorem v15_q_eq (d : Fin 1024) :
    barr (V1 m ρ) c (ix2 (0 : Fin 1) (⟨d.val, by omega⟩ : Fin 3072)) = inBq m c (ix1 d) * Ideal.ofBits .f32 0x3D000000#32 :=
  after0_v15_q (W0 m ρ c) d

theorem v15_k_eq (d : Fin 1024) :
    barr (V1 m ρ) c (ix2 (0 : Fin 1) (⟨1024 + d.val, by omega⟩ : Fin 3072)) = inBk m c (ix1 d) :=
  after0_v15_k (W0 m ρ c) d

theorem v15_v_eq (d : Fin 1024) :
    barr (V1 m ρ) c (ix2 (0 : Fin 1) (⟨2048 + d.val, by omega⟩ : Fin 3072)) = inBv m c (ix1 d) :=
  after0_v15_v (W0 m ρ c) d

/-! ## The three projected arrays at the projection region's exit -/

theorem v16_0_eq (b : Fin 4) (i : Fin 4096) (d' : Fin 1024) :
    (W2 m ρ c (Proc.devRef .tc main_v16_0) : S16384x1024.Idx → EReal) (ix2 (rowIdx b i) d')
      = Cert.Spec.qs (inX m c) (inWq m c) (inBq m c) b i d' := by
  refine (congrFun (W2_arr m ρ c 3) (ix2 (rowIdx b i) d')).trans ((arrAt0_3 (V1 m ρ) c (rowIdx b i) d').trans ?_)
  unfold Cert.Spec.qs
  exact congrArg₂ (· + ·)
    (Finset.sum_congr rfl fun e _ => congrArg₂ (· * ·) (v0_eq m ρ c b i e) (v11_q_eq m ρ c e d'))
    (v15_q_eq m ρ c d')

theorem v16_1_eq (b : Fin 4) (n : Fin 4096) (d' : Fin 1024) :
    (W2 m ρ c (Proc.devRef .tc main_v16_1) : S16384x1024.Idx → EReal) (ix2 (rowIdx b n) d')
      = Cert.Spec.proj (inX m c) (inWk m c) (inBk m c) b n d' := by
  refine (congrFun (W2_arr m ρ c 4) (ix2 (rowIdx b n) d')).trans ((arrAt0_4 (V1 m ρ) c (rowIdx b n) d').trans ?_)
  unfold Cert.Spec.proj
  exact congrArg₂ (· + ·)
    (Finset.sum_congr rfl fun e _ => congrArg₂ (· * ·) (v0_eq m ρ c b n e) (v11_k_eq m ρ c e d'))
    (v15_k_eq m ρ c d')

theorem v16_2_eq (b : Fin 4) (n : Fin 4096) (d : Fin 1024) :
    (W2 m ρ c (Proc.devRef .tc main_v16_2) : S16384x1024.Idx → EReal) (ix2 (rowIdx b n) d)
      = Cert.Spec.proj (inX m c) (inWv m c) (inBv m c) b n d := by
  refine (congrFun (W2_arr m ρ c 5) (ix2 (rowIdx b n) d)).trans ((arrAt0_5 (V1 m ρ) c (rowIdx b n) d).trans ?_)
  unfold Cert.Spec.proj
  exact congrArg₂ (· + ·)
    (Finset.sum_congr rfl fun e _ => congrArg₂ (· * ·) (v0_eq m ρ c b n e) (v11_v_eq m ρ c e d))
    (v15_v_eq m ρ c d)

/-! ## The attention region's inputs: the three reshapes -/

theorem v17_eq (b : Fin 4) (i : Fin 4096) (d' : Fin 1024) :
    (V3 m ρ c main_v17 : S4x4096x1024.Idx → EReal) (ix3 b i d')
      = Cert.Spec.qs (inX m c) (inWq m c) (inBq m c) b i d' :=
  (after1_v17 (W2 m ρ c) b i d').trans (v16_0_eq m ρ c b i d')

theorem v18_eq (b : Fin 4) (n : Fin 4096) (d' : Fin 1024) :
    (V3 m ρ c main_v18 : S4x4096x1024.Idx → EReal) (ix3 b n d')
      = Cert.Spec.proj (inX m c) (inWk m c) (inBk m c) b n d' :=
  (after1_v18 (W2 m ρ c) b n d').trans (v16_1_eq m ρ c b n d')

theorem v19_eq (b : Fin 4) (n : Fin 4096) (d : Fin 1024) :
    (V3 m ρ c main_v19 : S4x4096x1024.Idx → EReal) (ix3 b n d)
      = Cert.Spec.proj (inX m c) (inWv m c) (inBv m c) b n d :=
  (after1_v19 (W2 m ρ c) b n d).trans (v16_2_eq m ρ c b n d)

end Chain

/-! ## The result -/

/-- Entry `(b, i, d)` of the kernel's result is the attention output at `(b, i, d)` of its arguments. -/
theorem result_eq [hK : Cert.KernelIdeal.Facts] [hP : Cert.Pre_finite_inputs.Facts]
    (m : (ℓ : Loc nD τ sig) → Buf (Elt Ideal) ℓ) (ρ : Dev nD → PrngReg) (hpre : Cert.Pre_KernelIdeal m)
    (c : Dev nD) (b : Fin 4) (i : Fin 4096) (d : Fin 1024) :
    (W4 (F := Ideal) m ρ c (Proc.devRef .tc main_v20) : S4x4096x1024.Idx → EReal) (ix3 b i d)
      = Cert.Spec.attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b i d := by
  obtain ⟨hx, hWq, hbq, hWk, hbk, hWv, hbv⟩ := finite_of_Pre m hpre c
  refine (congrFun (W4_arr m ρ c 3) (ix3 b i d)).trans ((arrAt1_3 (V3 m ρ) c b i d).trans ?_)
  have hS : S (V3 m ρ) c b i = fun j kk => ∑ d' : Fin 1024,
      Cert.Spec.qs (inX m c) (inWq m c) (inBq m c) b i d'
        * Cert.Spec.proj (inX m c) (inWk m c) (inBk m c) b (Cert.Spec.tile j kk) d' :=
    funext fun j => funext fun kk => Finset.sum_congr rfl fun d' _ =>
      congrArg₂ (· * ·) (v17_eq m ρ c b i d') (v18_eq m ρ c b (Cert.Spec.tile j kk) d')
  have hV : Vv (V3 m ρ) c b d
      = fun j kk => Cert.Spec.proj (inX m c) (inWv m c) (inBv m c) b (Cert.Spec.tile j kk) d :=
    funext fun j => funext fun kk => v19_eq m ρ c b (Cert.Spec.tile j kk) d
  rw [hS, hV]
  exact Cert.Spec.kernel_eq_attn (inX m c) (inWq m c) (inBq m c) (inWk m c) (inBk m c) (inWv m c) (inBv m c)
    hx hWq hbq hWk hbk hWv hbv b i d

end Cert.KernelIdeal.Val

end
-- ==== Proof.lean ====
/-
  The kernel computes attention — `softmax(q kᵀ / 32) v` with `q, k, v` affine images of the input — in two pipelined
  passes: one stacked matrix product for the three projections (the scale `1/32` folded into the query weights and
  bias), then the tiled form of attention, which walks over the keys four tiles of 1024 at a time with a running
  maximum, a running denominator and a running numerator.  The reference computes the same thing in one piece.

  Over the extended reals, for finite inputs, the two results agree index by index:
  * scaling the query projection by `1/32` before the inner products is dividing the scores by 32 (distributivity, which
    needs the finiteness);
  * the tiled recurrence, whatever finite numbers its running maxima are, ends with numerator and denominator equal to
    the sums of `exp (score - M) · value` and `exp (score - M)` over all keys for one common `M`; the factor cancels in
    the quotient, and the same holds of the one-piece softmax.
  Each program's run (it ends, nothing faults, the arguments keep their contents) is proved along the way: the kernel's
  as a sequence of host operations and two pipelined regions, the reference's as a sequence of host operations.
-/
import proofs.«414292_j1580547973071_3_alg».proof.Defs
import proofs.«414292_j1580547973071_3_alg».proof.Proof.Gen.Kernel
import proofs.«414292_j1580547973071_3_alg».proof.Proof.Gen.KernelIdeal
import proofs.«414292_j1580547973071_3_alg».proof.Proof.Gen.ReferenceIdeal
import proofs.«414292_j1580547973071_3_alg».proof.Proof.Gen.ReferenceIdeal.Run
import proofs.«414292_j1580547973071_3_alg».proof.Proof.Gen.ReferenceIdeal.Read
import proofs.«414292_j1580547973071_3_alg».proof.Proof.Gen.Pre_finite_inputs
import proofs.«414292_j1580547973071_3_alg».proof.Proof.K.Run
import proofs.«414292_j1580547973071_3_alg».proof.Proof.KI.Run
import proofs.«414292_j1580547973071_3_alg».proof.Proof.Val.Ref
import proofs.«414292_j1580547973071_3_alg».proof.Proof.Val.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel (hKernel := Cert.Kernel.Gen.facts) (hPre_finite_inputs := Cert.Pre_finite_inputs.Gen.facts) :=
  fun m ρ _ => Cert.Kernel.Fr.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals, from memories that agree on the finite arguments, both programs end with the attention output
    `Cert.Spec.attn` of the arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.W4 (F := Ideal) m ρ c (Proc.devRef .tc Cert.KernelIdeal.main_v20), ?_, ?_⟩
  · exact (θ_run Cert.KernelIdeal.defs _ _).mono (fun _ h c =>
      ⟨h c _ (Cert.KernelIdeal.Fr.mem_uc Cert.KernelIdeal.main_v20 (by decide)),
       (h c _ (Cert.KernelIdeal.Fr.mem_uc Cert.KernelIdeal.main_arg0 (by decide))).trans (Cert.KernelIdeal.Fr.W4_main_arg0 m ρ c),
       (h c _ (Cert.KernelIdeal.Fr.mem_uc Cert.KernelIdeal.main_arg1 (by decide))).trans (Cert.KernelIdeal.Fr.W4_main_arg1 m ρ c),
       (h c _ (Cert.KernelIdeal.Fr.mem_uc Cert.KernelIdeal.main_arg2 (by decide))).trans (Cert.KernelIdeal.Fr.W4_main_arg2 m ρ c),
       (h c _ (Cert.KernelIdeal.Fr.mem_uc Cert.KernelIdeal.main_arg3 (by decide))).trans (Cert.KernelIdeal.Fr.W4_main_arg3 m ρ c),
       (h c _ (Cert.KernelIdeal.Fr.mem_uc Cert.KernelIdeal.main_arg4 (by decide))).trans (Cert.KernelIdeal.Fr.W4_main_arg4 m ρ c),
       (h c _ (Cert.KernelIdeal.Fr.mem_uc Cert.KernelIdeal.main_arg5 (by decide))).trans (Cert.KernelIdeal.Fr.W4_main_arg5 m ρ c),
       (h c _ (Cert.KernelIdeal.Fr.mem_uc Cert.KernelIdeal.main_arg6 (by decide))).trans (Cert.KernelIdeal.Fr.W4_main_arg6 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    funext idx
    obtain ⟨b, i, d, rfl⟩ : ∃ (b : Fin 4) (i : Fin 4096) (d : Fin 1024), idx = ix3 b i d := ⟨idx 0, idx 1, idx 2, eq_ix3 idx⟩
    refine (Cert.RefVal.ref_result m' c b i d).trans ?_
    rw [(hagree c).1, (hagree c).2.1, (hagree c).2.2.1, (hagree c).2.2.2.1, (hagree c).2.2.2.2.1, (hagree c).2.2.2.2.2.1, (hagree c).2.2.2.2.2.2]
    exact (Cert.KernelIdeal.Val.result_eq m ρ hpre c b i d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
